-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288 : Shape := ⟨1, ![524288]⟩
abbrev S1000000x64 : Shape := ⟨2, ![1000000, 64]⟩
abbrev S524288x64 : Shape := ⟨2, ![524288, 64]⟩
abbrev S1x128 : Shape := ⟨2, ![1, 128]⟩
abbrev S1 : Shape := ⟨1, ![1]⟩
abbrev S64x64 : Shape := ⟨2, ![64, 64]⟩
abbrev S64 : Shape := ⟨1, ![64]⟩
abbrev S_ : Shape := ⟨0, ![]⟩

class Facts : Prop where
  bcast_S_S1000000x64 : S_.BroadcastsInDim S1000000x64 (![] : Fin 0 → Fin S1000000x64.rank)
  reducesTo_S1000000x64_S_d0_1 : S1000000x64.ReducesTo [0, 1] S_
  h_S_ : 0 < S_.numel
  bcast_S_S524288x64 : S_.BroadcastsInDim S524288x64 (![] : Fin 0 → Fin S524288x64.rank)
  reducesTo_S524288x64_S_d0_1 : S524288x64.ReducesTo [0, 1] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S524288 : S_.BroadcastsInDim S524288 (![] : Fin 0 → Fin S524288.rank)
  reducesTo_S524288_S_d0 : S524288.ReducesTo [0] S_

variable [Facts]

def fn_part3 {F : FTy → Type} [FloatOps F] (main_v47 : IVec S_ 1) (main_v49 : IVec S524288 1) (main_c_19 : IVec S_ 1) : IVec S_ 1 :=
  let main_v50 : IVec S_ 1 := (fun x v => Host.reduce IntOp.andi x v reducesTo_S524288_S_d0 h_S_) main_v49 main_c_19
  let main_v51 : IVec S_ 1 := andi main_v47 main_v50
  main_v51

def fn_part2 {F : FTy → Type} [FloatOps F] (main_arg0 : IVec S524288 32) (main_arg8 : FVec F S64x64 .f32) (main_arg9 : FVec F S64 .f32) (main_v33 : IVec S_ 1) : IVec S_ 1 :=
  let main_v34 : FVec F S64x64 .f32 := Host.absf main_arg8
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_c_16 : IVec S_ 32 := constantI S_ 32 4293967296#32
  let main_v44 : IVec S524288 32 := broadcastInDim S524288 ![] bcast_S_S524288 main_c_16
  let main_v45 : IVec S524288 1 := cmpi .sge main_arg0 main_v44
  let main_c_17 : IVec S_ 1 := constantI S_ 1 1#1
  let main_v46 : IVec S_ 1 := (fun x v => Host.reduce IntOp.andi x v reducesTo_S524288_S_d0 h_S_) main_v45 main_c_17
  let main_v47 : IVec S_ 1 := andi main_v43 main_v46
  let main_c_18 : IVec S_ 32 := constantI S_ 32 1000000#32
  let main_v48 : IVec S524288 32 := broadcastInDim S524288 ![] bcast_S_S524288 main_c_18
  let main_v49 : IVec S524288 1 := cmpi .slt main_arg0 main_v48
  let main_c_19 : IVec S_ 1 := constantI S_ 1 1#1
  fn_part3 (F := F) main_v47 main_v49 main_c_19

def fn_part1 {F : FTy → Type} [FloatOps F] (main_arg0 : IVec S524288 32) (main_arg5 : FVec F S1 .f32) (main_arg6 : FVec F S1x128 .f32) (main_arg7 : FVec F S1 .f32) (main_arg8 : FVec F S64x64 .f32) (main_arg9 : FVec F S64 .f32) (main_v13 : IVec S_ 1) (main_v16 : IVec S1x128 1) : IVec S_ 1 :=
  let main_c_5 : IVec S_ 1 := constantI S_ 1 1#1
  let main_v17 : IVec S_ 1 := (fun x v => Host.reduce IntOp.andi x v reducesTo_S1x128_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_v24 : FVec F S1x128 .f32 := Host.absf main_arg6
  let main_cst_8 : FVec F S_ .f32 := constant S_ .f32 0x7F800000#32
  let main_v25 : FVec F S1x128 .f32 := broadcastInDim S1x128 ![] bcast_S_S1x128 main_cst_8
  let main_v26 : IVec S1x128 1 := cmpf .olt main_v24 main_v25
  let main_c_9 : IVec S_ 1 := constantI S_ 1 1#1
  let main_v27 : IVec S_ 1 := (fun x v => Host.reduce IntOp.andi x v reducesTo_S1x128_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg0 main_arg8 main_arg9 main_v33

def fn {F : FTy → Type} [FloatOps F] (main_arg0 : IVec S524288 32) (main_arg1 : FVec F S1000000x64 .f32) (main_arg2 : FVec F S524288x64 .f32) (main_arg3 : FVec F S524288x64 .f32) (main_arg4 : FVec F S1x128 .f32) (main_arg5 : FVec F S1 .f32) (main_arg6 : FVec F S1x128 .f32) (main_arg7 : FVec F S1 .f32) (main_arg8 : FVec F S64x64 .f32) (main_arg9 : FVec F S64 .f32) : IVec S_ 1 :=
  let main_v0 : FVec F S1000000x64 .f32 := Host.absf main_arg1
  let main_cst : FVec F S_ .f32 := constant S_ .f32 0x7F800000#32
  let main_v1 : FVec F S1000000x64 .f32 := broadcastInDim S1000000x64 ![] bcast_S_S1000000x64 main_cst
  let main_v2 : IVec S1000000x64 1 := cmpf .olt main_v0 main_v1
  let main_c : IVec S_ 1 := constantI S_ 1 1#1
  let main_v3 : IVec S_ 1 := (fun x v => Host.reduce IntOp.andi x v reducesTo_S1000000x64_S_d0_1 h_S_) main_v2 main_c
  let main_v4 : FVec F S524288x64 .f32 := Host.absf main_arg2
  let main_cst_0 : FVec F S_ .f32 := constant S_ .f32 0x7F800000#32
  let main_v5 : FVec F S524288x64 .f32 := broadcastInDim S524288x64 ![] bcast_S_S524288x64 main_cst_0
  let main_v6 : IVec S524288x64 1 := cmpf .olt main_v4 main_v5
  let main_c_1 : IVec S_ 1 := constantI S_ 1 1#1
  let main_v7 : IVec S_ 1 := (fun x v => Host.reduce IntOp.andi x v reducesTo_S524288x64_S_d0_1 h_S_) main_v6 main_c_1
  let main_v8 : IVec S_ 1 := andi main_v3 main_v7
  let main_v9 : FVec F S524288x64 .f32 := Host.absf main_arg3
  let main_cst_2 : FVec F S_ .f32 := constant S_ .f32 0x7F800000#32
  let main_v10 : FVec F S524288x64 .f32 := broadcastInDim S524288x64 ![] bcast_S_S524288x64 main_cst_2
  let main_v11 : IVec S524288x64 1 := cmpf .olt main_v9 main_v10
  let main_c_3 : IVec S_ 1 := constantI S_ 1 1#1
  let main_v12 : IVec S_ 1 := (fun x v => Host.reduce IntOp.andi x v reducesTo_S524288x64_S_d0_1 h_S_) main_v11 main_c_3
  let main_v13 : IVec S_ 1 := andi main_v8 main_v12
  let main_v14 : FVec F S1x128 .f32 := Host.absf main_arg4
  let main_cst_4 : FVec F S_ .f32 := constant S_ .f32 0x7F800000#32
  let main_v15 : FVec F S1x128 .f32 := broadcastInDim S1x128 ![] bcast_S_S1x128 main_cst_4
  let main_v16 : IVec S1x128 1 := cmpf .olt main_v14 main_v15
  fn_part1 (F := F) main_arg0 main_arg5 main_arg6 main_arg7 main_arg8 main_arg9 main_v13 main_v16
-- ==== Kernel.lean ====
abbrev S524288 : Shape := ⟨1, ![524288]⟩
abbrev S1000000x64 : Shape := ⟨2, ![1000000, 64]⟩
abbrev S524288x64 : Shape := ⟨2, ![524288, 64]⟩
abbrev S1x128 : Shape := ⟨2, ![1, 128]⟩
abbrev S1 : Shape := ⟨1, ![1]⟩
abbrev S64x64 : Shape := ⟨2, ![64, 64]⟩
abbrev S64 : Shape := ⟨1, ![64]⟩
abbrev S_ : Shape := ⟨0, ![]⟩
abbrev S524288x1 : Shape := ⟨2, ![524288, 1]⟩
abbrev S1x1 : Shape := ⟨2, ![1, 1]⟩
abbrev S1x64 : Shape := ⟨2, ![1, 64]⟩
abbrev S4096x64 : Shape := ⟨2, ![4096, 64]⟩
abbrev S4096 : Shape := ⟨1, ![4096]⟩
abbrev S4096x1 : Shape := ⟨2, ![4096, 1]⟩

abbrev nBuf : Space → Nat
  | .hbm => 41
  | .vmem => 16
  | .smem => 0
  | _ => 0

abbrev bufTy : (tb : Table) → Fin (tcTables nBuf tb) → BufTy
  | .hbm, ⟨0, _⟩ => ⟨S524288, .i32⟩
  | .hbm, ⟨1, _⟩ => ⟨S1000000x64, .f32⟩
  | .hbm, ⟨2, _⟩ => ⟨S524288x64, .f32⟩
  | .hbm, ⟨3, _⟩ => ⟨S524288x64, .f32⟩
  | .hbm, ⟨4, _⟩ => ⟨S1x128, .f32⟩
  | .hbm, ⟨5, _⟩ => ⟨S1, .f32⟩
  | .hbm, ⟨6, _⟩ => ⟨S1x128, .f32⟩
  | .hbm, ⟨7, _⟩ => ⟨S1, .f32⟩
  | .hbm, ⟨8, _⟩ => ⟨S64x64, .f32⟩
  | .hbm, ⟨9, _⟩ => ⟨S64, .f32⟩
  | .hbm, ⟨10, _⟩ => ⟨S_, .i32⟩
  | .hbm, ⟨11, _⟩ => ⟨S524288, .i32⟩
  | .hbm, ⟨12, _⟩ => ⟨S524288, .i1⟩
  | .hbm, ⟨13, _⟩ => ⟨S_, .i32⟩
  | .hbm, ⟨14, _⟩ => ⟨S524288, .i32⟩
  | .hbm, ⟨15, _⟩ => ⟨S524288, .i32⟩
  | .hbm, ⟨16, _⟩ => ⟨S524288, .i32⟩
  | .hbm, ⟨17, _⟩ => ⟨S524288x1, .i32⟩
  | .hbm, ⟨18, _⟩ => ⟨S1, .i32⟩
  | .hbm, ⟨19, _⟩ => ⟨S_, .i32⟩
  | .hbm, ⟨20, _⟩ => ⟨S524288x1, .i32⟩
  | .hbm, ⟨21, _⟩ => ⟨S524288x1, .i1⟩
  | .hbm, ⟨22, _⟩ => ⟨S1x1, .i32⟩
  | .hbm, ⟨23, _⟩ => ⟨S524288x1, .i32⟩
  | .hbm, ⟨24, _⟩ => ⟨S524288x1, .i1⟩
  | .hbm, ⟨25, _⟩ => ⟨S524288x1, .i1⟩
  | .hbm, ⟨26, _⟩ => ⟨S_, .i1⟩
  | .hbm, ⟨27, _⟩ => ⟨S524288, .i1⟩
  | .hbm, ⟨28, _⟩ => ⟨S524288x64, .f32⟩
  | .hbm, ⟨29, _⟩ => ⟨S524288x64, .i1⟩
  | .hbm, ⟨30, _⟩ => ⟨S_, .f32⟩
  | .hbm, ⟨31, _⟩ => ⟨S524288x64, .f32⟩
  | .hbm, ⟨32, _⟩ => ⟨S524288x64, .f32⟩
  | .hbm, ⟨33, _⟩ => ⟨S1x64, .f32⟩
  | .hbm, ⟨34, _⟩ => ⟨S1x64, .f32⟩
  | .hbm, ⟨35, _⟩ => ⟨S1x64, .f32⟩
  | .hbm, ⟨36, _⟩ => ⟨S1x64, .f32⟩
  | .hbm, ⟨37, _⟩ => ⟨S1x1, .f32⟩
  | .hbm, ⟨38, _⟩ => ⟨S1x1, .f32⟩
  | .hbm, ⟨39, _⟩ => ⟨S1x64, .f32⟩
  | .hbm, ⟨40, _⟩ => ⟨S524288x64, .f32⟩
  | .local _ .vmem, ⟨0, _⟩ => ⟨S4096x64, .f32⟩
  | .local _ .vmem, ⟨1, _⟩ => ⟨S4096x64, .f32⟩
  | .local _ .vmem, ⟨2, _⟩ => ⟨S4096x64, .f32⟩
  | .local _ .vmem, ⟨3, _⟩ => ⟨S4096x64, .f32⟩
  | .local _ .vmem, ⟨4, _⟩ => ⟨S4096x64, .f32⟩
  | .local _ .vmem, ⟨5, _⟩ => ⟨S4096x64, .f32⟩
  | .local _ .vmem, ⟨6, _⟩ => ⟨S1x64, .f32⟩
  | .local _ .vmem, ⟨7, _⟩ => ⟨S1x64, .f32⟩
  | .local _ .vmem, ⟨8, _⟩ => ⟨S1x1, .f32⟩
  | .local _ .vmem, ⟨9, _⟩ => ⟨S1x64, .f32⟩
  | .local _ .vmem, ⟨10, _⟩ => ⟨S1x64, .f32⟩
  | .local _ .vmem, ⟨11, _⟩ => ⟨S1x1, .f32⟩
  | .local _ .vmem, ⟨12, _⟩ => ⟨S64x64, .f32⟩
  | .local _ .vmem, ⟨13, _⟩ => ⟨S1x64, .f32⟩
  | .local _ .vmem, ⟨14, _⟩ => ⟨S4096x64, .f32⟩
  | .local _ .vmem, ⟨15, _⟩ => ⟨S4096x64, .f32⟩
  | _, _ => ⟨S524288, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_cst : Ref sig .tc := ⟨.hbm, 30, rfl⟩
abbrev main_call0_v15 : Ref sig .tc := ⟨.hbm, 31, rfl⟩
abbrev main_v0 : Ref sig .tc := ⟨.hbm, 32, rfl⟩
abbrev main_v1 : Ref sig .tc := ⟨.hbm, 33, rfl⟩
abbrev main_v2 : Ref sig .tc := ⟨.hbm, 34, rfl⟩
abbrev main_v3 : Ref sig .tc := ⟨.hbm, 35, rfl⟩
abbrev main_v4 : Ref sig .tc := ⟨.hbm, 36, rfl⟩
abbrev main_v5 : Ref sig .tc := ⟨.hbm, 37, rfl⟩
abbrev main_v6 : Ref sig .tc := ⟨.hbm, 38, rfl⟩
abbrev main_v7 : Ref sig .tc := ⟨.hbm, 39, rfl⟩
abbrev main_v8 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S4096x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  bcast_S_S524288 : S_.BroadcastsInDim S524288 (![] : Fin 0 → Fin S524288.rank)
  bcast_S524288_S524288x1_0 : S524288.BroadcastsInDim S524288x1 (![0] : Fin 1 → Fin S524288x1.rank)
  bcast_S_S524288x1 : S_.BroadcastsInDim S524288x1 (![] : Fin 0 → Fin S524288x1.rank)
  bcast_S1_S1x1_1 : S1.BroadcastsInDim S1x1 (![1] : Fin 1 → Fin S1x1.rank)
  bcast_S1x1_S524288x1_0_1 : S1x1.BroadcastsInDim S524288x1 (![0, 1] : Fin 2 → Fin S524288x1.rank)
  reducesTo_S524288x1_S524288_d1 : S524288x1.ReducesTo [1] S524288
  h_S_ : 0 < S_.numel
  bcast_S524288_S524288x64_0 : S524288.BroadcastsInDim S524288x64 (![0] : Fin 1 → Fin S524288x64.rank)
  bcast_S_S524288x64 : S_.BroadcastsInDim S524288x64 (![] : Fin 0 → Fin S524288x64.rank)
  slices_S1x128_S1x64_0_0 : S1x128.Slices ![0, 0] S1x64
  slices_S1x128_S1x64_0_64 : S1x128.Slices ![0, 64] S1x64
  shapeCasts_S1_S1x1 : S1.ShapeCasts S1x1
  shapeCasts_S64_S1x64 : S64.ShapeCasts S1x64
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4096x64 : S1x64.Broadcasts S4096x64
  reduces_S4096x64_S4096 : S4096x64.Reduces [1] S4096
  shapeCasts_S4096_S4096x1 : S4096.ShapeCasts S4096x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4096x1 : S1x1.Broadcasts S4096x1
  broadcasts_S4096x1_S4096x64 : S4096x1.Broadcasts S4096x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  transposes_S64x64_p1_0_S64x64 : S64x64.Transposes [1, 0] S64x64
  gather_S1000000x64_S524288x1_S524288x64_1_0_n_n_0_1_164_wf : GatherDims.WF S1000000x64 S524288x1 S524288x64 [1] [0] [] [0] [] 1 ![1, 64]
  dot_S4096x64_S64x64_S4096x64_1_0_0_1_n_n_wf : DotDims.WF S4096x64 S64x64 S4096x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x64.size a ≤ S524288x64.size a
  hwx0_0 : ∀ i : grid0.Coords, EltTy.bits .f32 = 32 ∨ (Rect.block (s := S524288x64) S4096x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x64.size a ≤ S524288x64.size a
  hwx0_1 : ∀ i : grid0.Coords, EltTy.bits .f32 = 32 ∨ (Rect.block (s := S524288x64) S4096x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x64.size a ≤ S524288x64.size a
  hwx0_2 : ∀ i : grid0.Coords, EltTy.bits .f32 = 32 ∨ (Rect.block (s := S524288x64) S4096x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1.size a ≤ S1x1.size a
  hwx0_8 : ∀ i : grid0.Coords, EltTy.bits .f32 = 32 ∨ (Rect.block (s := S1x1) S1x1.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64x64.size a ≤ S64x64.size a
  hwx0_9 : ∀ i : grid0.Coords, EltTy.bits .f32 = 32 ∨ (Rect.block (s := S64x64) S64x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x64.size a ≤ S1x64.size a
  hwx0_10 : ∀ i : grid0.Coords, EltTy.bits .f32 = 32 ∨ (Rect.block (s := S1x64) S1x64.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S4096x64.size a ≤ S524288x64.size a
  hwx0_11 : ∀ i : grid0.Coords, EltTy.bits .f32 = 32 ∨ (Rect.block (s := S524288x64) S4096x64.size (cc0_transform_11 i) (hinb0_11 i)).WholeWords (EltTy.packing .f32)

variable [Facts₀]

def gather_S1000000x64_S524288x1_S524288x64_1_0_n_n_0_1_164 : GatherDims S1000000x64 S524288x1 S524288x64 where
  offsetDims := [1]
  collapsedSliceDims := [0]
  operandBatchingDims := []
  startIndicesBatchingDims := []
  startIndexMap := [0]
  indexVectorDim := 1
  sliceSizes := ![1, 64]
  wf := gather_S1000000x64_S524288x1_S524288x64_1_0_n_n_0_1_164_wf
def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf

abbrev win0_0 : Pipeline.Window sig grid0 :=
  Pipeline.Window.ofSpec (Memref.whole main_v0) S4096x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S4096x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S4096x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v6) S1x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg8) S64x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v7) S1x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v8) S4096x64.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S524288 : Shape := ⟨1, ![524288]⟩
abbrev S1000000x64 : Shape := ⟨2, ![1000000, 64]⟩
abbrev S524288x64 : Shape := ⟨2, ![524288, 64]⟩
abbrev S1x128 : Shape := ⟨2, ![1, 128]⟩
abbrev S1 : Shape := ⟨1, ![1]⟩
abbrev S64x64 : Shape := ⟨2, ![64, 64]⟩
abbrev S64 : Shape := ⟨1, ![64]⟩
abbrev S_ : Shape := ⟨0, ![]⟩
abbrev S524288x1 : Shape := ⟨2, ![524288, 1]⟩
abbrev S524288x128 : Shape := ⟨2, ![524288, 128]⟩
abbrev S128x1 : Shape := ⟨2, ![128, 1]⟩
abbrev S1x1 : Shape := ⟨2, ![1, 1]⟩
abbrev S1x64 : Shape := ⟨2, ![1, 64]⟩

abbrev nBuf : Space → Nat
  | .hbm => 63
  | .vmem => 0
  | .smem => 0
  | _ => 0

abbrev bufTy : (tb : Table) → Fin (tcTables nBuf tb) → BufTy
  | .hbm, ⟨0, _⟩ => ⟨S524288, .i32⟩
  | .hbm, ⟨1, _⟩ => ⟨S1000000x64, .f32⟩
  | .hbm, ⟨2, _⟩ => ⟨S524288x64, .f32⟩
  | .hbm, ⟨3, _⟩ => ⟨S524288x64, .f32⟩
  | .hbm, ⟨4, _⟩ => ⟨S1x128, .f32⟩
  | .hbm, ⟨5, _⟩ => ⟨S1, .f32⟩
  | .hbm, ⟨6, _⟩ => ⟨S1x128, .f32⟩
  | .hbm, ⟨7, _⟩ => ⟨S1, .f32⟩
  | .hbm, ⟨8, _⟩ => ⟨S64x64, .f32⟩
  | .hbm, ⟨9, _⟩ => ⟨S64, .f32⟩
  | .hbm, ⟨10, _⟩ => ⟨S_, .i32⟩
  | .hbm, ⟨11, _⟩ => ⟨S524288, .i32⟩
  | .hbm, ⟨12, _⟩ => ⟨S524288, .i1⟩
  | .hbm, ⟨13, _⟩ => ⟨S_, .i32⟩
  | .hbm, ⟨14, _⟩ => ⟨S524288, .i32⟩
  | .hbm, ⟨15, _⟩ => ⟨S524288, .i32⟩
  | .hbm, ⟨16, _⟩ => ⟨S524288, .i32⟩
  | .hbm, ⟨17, _⟩ => ⟨S524288x1, .i32⟩
  | .hbm, ⟨18, _⟩ => ⟨S524288x64, .f32⟩
  | .hbm, ⟨19, _⟩ => ⟨S524288x128, .f32⟩
  | .hbm, ⟨20, _⟩ => ⟨S128x1, .f32⟩
  | .hbm, ⟨21, _⟩ => ⟨S524288x1, .f32⟩
  | .hbm, ⟨22, _⟩ => ⟨S1x1, .f32⟩
  | .hbm, ⟨23, _⟩ => ⟨S524288x1, .f32⟩
  | .hbm, ⟨24, _⟩ => ⟨S524288x1, .f32⟩
  | .hbm, ⟨25, _⟩ => ⟨S_, .f32⟩
  | .hbm, ⟨26, _⟩ => ⟨S524288x1, .f32⟩
  | .hbm, ⟨27, _⟩ => ⟨S524288x1, .i1⟩
  | .hbm, ⟨28, _⟩ => ⟨S_, .f32⟩
  | .hbm, ⟨29, _⟩ => ⟨S524288x1, .f32⟩
  | .hbm, ⟨30, _⟩ => ⟨S524288x1, .f32⟩
  | .hbm, ⟨31, _⟩ => ⟨S524288x1, .f32⟩
  | .hbm, ⟨32, _⟩ => ⟨S524288x128, .f32⟩
  | .hbm, ⟨33, _⟩ => ⟨S128x1, .f32⟩
  | .hbm, ⟨34, _⟩ => ⟨S524288x1, .f32⟩
  | .hbm, ⟨35, _⟩ => ⟨S1x1, .f32⟩
  | .hbm, ⟨36, _⟩ => ⟨S524288x1, .f32⟩
  | .hbm, ⟨37, _⟩ => ⟨S524288x1, .f32⟩
  | .hbm, ⟨38, _⟩ => ⟨S_, .f32⟩
  | .hbm, ⟨39, _⟩ => ⟨S524288x1, .f32⟩
  | .hbm, ⟨40, _⟩ => ⟨S524288x1, .i1⟩
  | .hbm, ⟨41, _⟩ => ⟨S_, .f32⟩
  | .hbm, ⟨42, _⟩ => ⟨S524288x1, .f32⟩
  | .hbm, ⟨43, _⟩ => ⟨S524288x1, .f32⟩
  | .hbm, ⟨44, _⟩ => ⟨S524288x1, .f32⟩
  | .hbm, ⟨45, _⟩ => ⟨S524288x64, .f32⟩
  | .hbm, ⟨46, _⟩ => ⟨S524288x64, .f32⟩
  | .hbm, ⟨47, _⟩ => ⟨S524288x64, .f32⟩
  | .hbm, ⟨48, _⟩ => ⟨S524288x64, .f32⟩
  | .hbm, ⟨49, _⟩ => ⟨S524288x64, .f32⟩
  | .hbm, ⟨50, _⟩ => ⟨S524288x64, .f32⟩
  | .hbm, ⟨51, _⟩ => ⟨S64x64, .f32⟩
  | .hbm, ⟨52, _⟩ => ⟨S524288x64, .f32⟩
  | .hbm, ⟨53, _⟩ => ⟨S1x64, .f32⟩
  | .hbm, ⟨54, _⟩ => ⟨S524288x64, .f32⟩
  | .hbm, ⟨55, _⟩ => ⟨S524288x64, .f32⟩
  | .hbm, ⟨56, _⟩ => ⟨S_, .f32⟩
  | .hbm, ⟨57, _⟩ => ⟨S524288x64, .f32⟩
  | .hbm, ⟨58, _⟩ => ⟨S524288x64, .i1⟩
  | .hbm, ⟨59, _⟩ => ⟨S_, .f32⟩
  | .hbm, ⟨60, _⟩ => ⟨S524288x64, .f32⟩
  | .hbm, ⟨61, _⟩ => ⟨S524288x64, .f32⟩
  | .hbm, ⟨62, _⟩ => ⟨S524288x64, .f32⟩
  | _, _ => ⟨S524288, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst : Ref sig .tc := ⟨.hbm, 25, rfl⟩
abbrev main_v13 : Ref sig .tc := ⟨.hbm, 26, rfl⟩
abbrev main_v14 : Ref sig .tc := ⟨.hbm, 27, rfl⟩
abbrev main_cst_1 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_2 : Ref sig .tc := ⟨.hbm, 38, rfl⟩
abbrev main_v24 : Ref sig .tc := ⟨.hbm, 39, rfl⟩
abbrev main_v25 : Ref sig .tc := ⟨.hbm, 40, rfl⟩
abbrev main_cst_3 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_4 : Ref sig .tc := ⟨.hbm, 56, rfl⟩
abbrev main_v40 : Ref sig .tc := ⟨.hbm, 57, rfl⟩
abbrev main_v41 : Ref sig .tc := ⟨.hbm, 58, rfl⟩
abbrev main_cst_5 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩

abbrev nD : Nat := 1
abbrev τ : Topo := Topo.v7x

variable {F : FTy → Type} [FloatOps F]

class Facts₀ : Prop where
  bcast_S_S524288 : S_.BroadcastsInDim S524288 (![] : Fin 0 → Fin S524288.rank)
  bcast_S524288_S524288x1_0 : S524288.BroadcastsInDim S524288x1 (![0] : Fin 1 → Fin S524288x1.rank)
  concatenates_S524288x64_S524288x64_S524288x128_d1 : Shape.Concatenates [S524288x64, S524288x64] S524288x128 1
  transposes_S1x128_S128x1_1_0 : S1x128.Transposes [1, 0] S128x1
  bcast_S1_S1x1_1 : S1.BroadcastsInDim S1x1 (![1] : Fin 1 → Fin S1x1.rank)
  bcast_S1x1_S524288x1_0_1 : S1x1.BroadcastsInDim S524288x1 (![0, 1] : Fin 2 → Fin S524288x1.rank)
  bcast_S_S524288x1 : S_.BroadcastsInDim S524288x1 (![] : Fin 0 → Fin S524288x1.rank)
  bcast_S524288x1_S524288x64_0_1 : S524288x1.BroadcastsInDim S524288x64 (![0, 1] : Fin 2 → Fin S524288x64.rank)
  transposes_S64x64_S64x64_1_0 : S64x64.Transposes [1, 0] S64x64
  bcast_S64_S1x64_1 : S64.BroadcastsInDim S1x64 (![1] : Fin 1 → Fin S1x64.rank)
  bcast_S1x64_S524288x64_0_1 : S1x64.BroadcastsInDim S524288x64 (![0, 1] : Fin 2 → Fin S524288x64.rank)
  bcast_S_S524288x64 : S_.BroadcastsInDim S524288x64 (![] : Fin 0 → Fin S524288x64.rank)
  gather_S1000000x64_S524288x1_S524288x64_1_0_n_n_0_1_164_wf : GatherDims.WF S1000000x64 S524288x1 S524288x64 [1] [0] [] [0] [] 1 ![1, 64]
  dot_S524288x128_S128x1_S524288x1_1_0_0_1_n_n_wf : DotDims.WF S524288x128 S128x1 S524288x1 [1] [0] [0] [1] [] []
  dot_S524288x64_S64x64_S524288x64_1_0_0_1_n_n_wf : DotDims.WF S524288x64 S64x64 S524288x64 [1] [0] [0] [1] [] []

variable [Facts₀]

def gather_S1000000x64_S524288x1_S524288x64_1_0_n_n_0_1_164 : GatherDims S1000000x64 S524288x1 S524288x64 where
  offsetDims := [1]
  collapsedSliceDims := [0]
  operandBatchingDims := []
  startIndicesBatchingDims := []
  startIndexMap := [0]
  indexVectorDim := 1
  sliceSizes := ![1, 64]
  wf := gather_S1000000x64_S524288x1_S524288x64_1_0_n_n_0_1_164_wf
def dot_S524288x128_S128x1_S524288x1_1_0_0_1_n_n : DotDims S524288x128 S128x1 S524288x1 where
  lhsContracting := [1]
  rhsContracting := [0]
  lhsNonContracting := [0]
  rhsNonContracting := [1]
  lhsBatch := []
  rhsBatch := []
  wf := dot_S524288x128_S128x1_S524288x1_1_0_0_1_n_n_wf
def dot_S524288x64_S64x64_S524288x64_1_0_0_1_n_n : DotDims S524288x64 S64x64 S524288x64 where
  lhsContracting := [1]
  rhsContracting := [0]
  lhsNonContracting := [0]
  rhsNonContracting := [1]
  lhsBatch := []
  rhsBatch := []
  wf := dot_S524288x64_S64x64_S524288x64_1_0_0_1_n_n_wf

class Facts : Prop extends Facts₀ where

variable [Facts]
-- ==== Proof.Range.lean ====
/-
  The node indices' range, read out of the precondition, and what it gives the embedding lookup.

  The precondition's last two conjuncts say every node index n satisfies -1000000 ≤ n < 1000000 as a signed word.
  Both programs first wrap a negative index by adding the table's height 1000000; on that range the wrapped index
  lies in [0, 999999], so the range test the kernel's lookup applies afterwards passes at every row.
-/
import proofs.«429671_j20375324852398_3_alg».proof.Pre_finite_inputs
import Idealize.ShloMosaic.Lib.ReduceAll
import Idealize.ShloMosaic.Lib.ValueIdx

namespace Cert.Encoder

open Idealize.ShloMosaic

/-- A signed word in [-1000000, 1000000), wrapped by adding 1000000 when negative, is in [0, 999999]: the sum does
    not overflow, so it is the integer sum. -/
theorem wrapped_in_range (n : BitVec 32) (h1 : IntOp.cmpi .sge n 4293967296#32 = 1#1)
    (h2 : IntOp.cmpi .slt n 1000000#32 = 1#1) :
    IntOp.andi (IntOp.cmpi .sge (Scalar.select (IntOp.cmpi .slt n 0#32) (IntOp.addi n 1000000#32) n) 0#32)
      (IntOp.cmpi .sle (Scalar.select (IntOp.cmpi .slt n 0#32) (IntOp.addi n 1000000#32) n) 999999#32) = 1#1 := by
  have e1 : (4293967296#32 : BitVec 32).toInt = -1000000 := by decide
  have e2 : (1000000#32 : BitVec 32).toInt = 1000000 := by decide
  have e0 : (0#32 : BitVec 32).toInt = 0 := by decide
  have e9 : (999999#32 : BitVec 32).toInt = 999999 := by decide
  rw [IntOp.cmpi_sge, e1] at h1
  rw [IntOp.cmpi_slt, e2] at h2
  rw [IntOp.andi_eq_one, IntOp.cmpi_sge, IntOp.cmpi_sle, e0, e9]
  by_cases hneg : IntOp.cmpi .slt n 0#32 = 1#1
  · have hlt := IntOp.cmpi_slt.1 hneg
    rw [e0] at hlt
    rw [hneg, ValueIdx.select_one]
    have hs : (IntOp.addi n 1000000#32).toInt = n.toInt + 1000000 := by
      rw [IntOp.addi, BitVec.toInt_add, e2]
      exact Int.bmod_eq_of_le (by omega) (by omega)
    omega
  · have hge : ¬ n.toInt < 0 := fun h => hneg (IntOp.cmpi_slt.2 (by rw [e0]; exact h))
    rw [ValueIdx.eq_zero_of_ne_one hneg, ValueIdx.select_zero]
    omega

/-- A reduction by "and" of an array that is 1 everywhere, from the initial value 1, is 1 at every result index:
    the fold meets only ones. -/
theorem reduce_andi_ones {s t u : Shape} {axes : List (Fin s.rank)} (x : s.Idx → BitVec 1) (init : u.Idx → BitVec 1)
    (h : s.ReducesTo axes t) (hu : 0 < u.numel) (hx : ∀ i, x i = 1#1) (hinit : ∀ k, init k = 1#1) (j : t.Idx) :
    Host.reduce IntOp.andi x init h hu j = 1#1 := by
  unfold Host.reduce
  rw [hinit]
  generalize (List.finRange s.numel).filter (fun n => h.drop (s.rowMajor.symm n) = j) = l
  induction l with
  | nil => rfl
  | cons a l ih =>
    rw [List.foldl_cons, hx, show IntOp.andi (1#1 : BitVec 1) 1#1 = 1#1 from by decide]
    exact ih

section Decode

variable {F : FTy → Type} [FloatOps F] [Cert.Pre_finite_inputs.Facts]

open Cert.Pre_finite_inputs

/-- The rank-0 shape has one index. -/
instance : Subsingleton S_.Idx := ⟨fun a b => funext fun d => d.elim0⟩

/-- The precondition's two integer conjuncts, element by element: each is an all-reduction by "and" of a comparison
    of the index array with a splat constant, and the conjunction is 1. -/
theorem nodes_bounds (a0 : IVec S524288 32) (a1 : FVec F S1000000x64 .f32) (a2 a3 : FVec F S524288x64 .f32)
    (a4 : FVec F S1x128 .f32) (a5 : FVec F S1 .f32) (a6 : FVec F S1x128 .f32) (a7 : FVec F S1 .f32)
    (a8 : FVec F S64x64 .f32) (a9 : FVec F S64 .f32)
    (h : fn (F := F) a0 a1 a2 a3 a4 a5 a6 a7 a8 a9 = fun _ => 1#1) (i : S524288.Idx) :
    IntOp.cmpi .sge (a0 i) 4293967296#32 = 1#1 ∧ IntOp.cmpi .slt (a0 i) 1000000#32 = 1#1 := by
  have h0 := congrFun h ValueIdx.ix0
  dsimp only [fn, fn_part1, fn_part2, fn_part3] at h0
  obtain ⟨h47, h50⟩ := IntOp.andi_eq_one.1 h0
  obtain ⟨-, h46⟩ := IntOp.andi_eq_one.1 h47
  exact ⟨Host.reduce_andi_all _ _ _ _ _ h46 i, Host.reduce_andi_all _ _ _ _ _ h50 i⟩

end Decode

end Cert.Encoder
-- ==== Proof.Spec.lean ====
/-
  The encoder's result, row by row, on the extended reals.

  Row r of the batch has three feature vectors of 64 lanes: the embedding row s the node index selects, and the two
  neighbour aggregates a and b. A gate is a linear form on the pair (s, a) of 128 lanes plus a bias, passed through
  the activation; the two gates weight a and b, the sum s + α·a + β·b goes through a 64 × 64 linear layer with bias
  and through the activation once more. The activation is the slope-one rectifier both programs spell out:
  x where x ≥ 0, else 1·x.

  The one algebraic fact the comparison needs: a sum over 128 lanes is the sum over the first 64 plus the sum over the
  last 64 (the kernel sums the two halves of a gate separately, the reference sums the concatenation).
-/
import Idealize.ShloMosaic.PureOps.Ideal
import Idealize.ShloMosaic.PureOps.Ideal.Laws
import Idealize.ShloMosaic.Lib.ValueIdx

noncomputable section

open scoped BigOperators

namespace Cert.Encoder

open Idealize.ShloMosaic Idealize.ShloMosaic.ValueIdx

/-- Lane k of the first half of 128 lanes. -/
abbrev lo (k : Fin 64) : Fin 128 := ⟨k.val, by have := k.isLt; omega⟩
/-- Lane k of the second half of 128 lanes. -/
abbrev hi (k : Fin 64) : Fin 128 := ⟨64 + k.val, by have := k.isLt; omega⟩

/-- A sum over 128 lanes splits at lane 64. Addition of extended reals is commutative and associative, so no
    finiteness is needed. -/
theorem sum_halves {M : Type} [AddCommMonoid M] (f : Fin 128 → M) :
    ∑ k : Fin 128, f k = (∑ k : Fin 64, f (lo k)) + ∑ k : Fin 64, f (hi k) := by
  have h := Fin.sum_univ_add (a := 64) (b := 64) f
  refine h.trans ?_
  congr 1

/-- The slope-one rectifier, as printed: x where x ≥ 0, else 1·x. -/
def act (x : Ideal .f32) : Ideal .f32 :=
  Scalar.select (FloatOps.cmpf .oge x (FloatOps.ofBits .f32 0x00000000#32)) x
    (FloatOps.mulf (FloatOps.ofBits .f32 0x3F800000#32) x)

/-- A gate's logit: the linear form on (s, a) with the weights' two halves w₁, w₂, plus the bias. -/
def logit (s a w₁ w₂ : Fin 64 → Ideal .f32) (b : Ideal .f32) : Ideal .f32 :=
  ((∑ k : Fin 64, s k * w₁ k) + ∑ k : Fin 64, a k * w₂ k) + b

/-- One row's combined features at lane k: s + α·a + β·b with the two activated gates. -/
def mix (s a b u₁ u₂ v₁ v₂ : Fin 64 → Ideal .f32) (cu cv : Ideal .f32) (k : Fin 64) : Ideal .f32 :=
  (s k + act (logit s a u₁ u₂ cu) * a k) + act (logit s b v₁ v₂ cv) * b k

/-- One row's output at lane q: the activated linear layer of the combined features. -/
def rowOut (s a b u₁ u₂ v₁ v₂ : Fin 64 → Ideal .f32) (cu cv : Ideal .f32) (g : Fin 64 → Fin 64 → Ideal .f32)
    (d : Fin 64 → Ideal .f32) (q : Fin 64) : Ideal .f32 :=
  act ((∑ k : Fin 64, mix s a b u₁ u₂ v₁ v₂ cu cv k * g q k) + d q)

/-- The whole result array from the gathered rows sf, the two neighbour arrays and the weights as the programs
    receive them: the gates' weights [1, 128] with the self half first, their biases [1], the layer's weight [64, 64]
    indexed (output lane, input lane) and its bias [64]. -/
def G (sf l1 l2 : FVec Ideal ⟨2, ![524288, 64]⟩ .f32) (aw : FVec Ideal ⟨2, ![1, 128]⟩ .f32) (ab : FVec Ideal ⟨1, ![1]⟩ .f32)
    (bw : FVec Ideal ⟨2, ![1, 128]⟩ .f32) (bb : FVec Ideal ⟨1, ![1]⟩ .f32) (gw : FVec Ideal ⟨2, ![64, 64]⟩ .f32)
    (gb : FVec Ideal ⟨1, ![64]⟩ .f32) : FVec Ideal ⟨2, ![524288, 64]⟩ .f32 :=
  fun i => rowOut (fun k => sf (ix2 (i 0) k)) (fun k => l1 (ix2 (i 0) k)) (fun k => l2 (ix2 (i 0) k))
    (fun k => aw (ix2 (0 : Fin 1) (lo k))) (fun k => aw (ix2 (0 : Fin 1) (hi k)))
    (fun k => bw (ix2 (0 : Fin 1) (lo k))) (fun k => bw (ix2 (0 : Fin 1) (hi k)))
    (ab (ix1 (0 : Fin 1))) (bb (ix1 (0 : Fin 1)))
    (fun q k => gw (ix2 q k)) (fun q => gb (ix1 q)) (i 1)

end Cert.Encoder

end
-- ==== Proof.RefValue.lean ====
/-
  The reference's result is the encoder function G of its gathered embedding rows and its arguments.

  Read stage by stage at an index (r, q): a gate's logit is the dot product of the concatenation [self | neighbour]
  (128 lanes) with the gate's weight row, which splits at lane 64 into the two half sums, plus the bias; the
  activation is the select on x ≥ 0; the combined features are self + α·l1 + β·l2; the last layer is the dot with
  the transposed 64 × 64 weight, so its (q, k) entry meets lane k; then bias and activation.
-/
import proofs.«429671_j20375324852398_3_alg».proof.Proof.Gen.ReferenceIdeal.Read
import proofs.«429671_j20375324852398_3_alg».proof.Proof.Spec

noncomputable section

open scoped BigOperators

namespace Cert.Encoder.Ref

open Cert.ReferenceIdeal Cert.ReferenceIdeal.Gen Cert.ReferenceIdeal.Read Idealize.ShloMosaic
open Idealize.ShloMosaic.ValueIdx Cert.Encoder

/-- The concatenation [sf | l] along the lanes, dotted with the transposed weight row w at row r: the first 64 lanes
    meet sf and the first half of w, the last 64 meet l and the second half. -/
theorem cat_dot (sf l : FVec Ideal S524288x64 .f32) (w : FVec Ideal S1x128 .f32) (r : Fin 524288) :
    (∑ k : Fin 128, (concatenate S524288x128 1 [⟨S524288x64, sf⟩, ⟨S524288x64, l⟩] concatenates_S524288x64_S524288x64_S524288x128_d1)
        (lidx_main_v9 (ix2 r (0 : Fin 1)) k) * (transpose S128x1 [1, 0] w transposes_S1x128_S128x1_1_0) (ridx_main_v9 (ix2 r (0 : Fin 1)) k))
      = (∑ k : Fin 64, sf (ix2 r k) * w (ix2 (0 : Fin 1) (lo k))) + ∑ k : Fin 64, l (ix2 r k) * w (ix2 (0 : Fin 1) (hi k)) := by
  rw [sum_halves]
  congr 1
  · refine Finset.sum_congr rfl fun k _ => ?_
    congr 1
    · refine concatenate_pair_apply_left (t := S524288x128) 1 sf l concatenates_S524288x64_S524288x64_S524288x128_d1 _ rfl (ix2 r k) (fun b => ?_)
      match b with
      | ⟨0, _⟩ => rfl
      | ⟨1, _⟩ => rfl
    · refine transpose_apply [1, 0] w transposes_S1x128_S128x1_1_0 _ (ix2 (0 : Fin 1) (lo k)) (fun b => ?_)
      match b with
      | ⟨0, _⟩ => rfl
      | ⟨1, _⟩ => rfl
  · refine Finset.sum_congr rfl fun k _ => ?_
    congr 1
    · refine concatenate_pair_apply_right (t := S524288x128) 1 sf l concatenates_S524288x64_S524288x64_S524288x128_d1 _ rfl rfl (ix2 r k) (fun b hb => ?_) ?_
      · match b with
        | ⟨0, _⟩ => rfl
        | ⟨1, _⟩ => exact absurd rfl hb
      · show k.val + 64 = 64 + k.val
        omega
    · refine transpose_apply [1, 0] w transposes_S1x128_S128x1_1_0 _ (ix2 (0 : Fin 1) (hi k)) (fun b => ?_)
      match b with
      | ⟨0, _⟩ => rfl
      | ⟨1, _⟩ => rfl

/-- A bias [1], broadcast to a column [524288, 1], read at row r is the bias. -/
theorem bias_col (x5 : FVec Ideal S1 .f32) (r : Fin 524288) :
    val_main_v11 (F := Ideal) x5 (ix2 r (0 : Fin 1)) = x5 (ix1 (0 : Fin 1)) := by
  rw [val_main_v11_apply, val_main_v10_apply]
  refine congrArg x5 (funext fun a => ?_)
  match a with
  | ⟨0, _⟩ => rfl

/-- The first gate's logit at row r. -/
theorem logit_alpha (x0 : IVec S524288 32) (x1 : FVec Ideal S1000000x64 .f32) (x2 : FVec Ideal S524288x64 .f32)
    (x4 : FVec Ideal S1x128 .f32) (x5 : FVec Ideal S1 .f32) (r : Fin 524288) :
    val_main_v12 (F := Ideal) x0 x1 x2 x4 x5 (ix2 r (0 : Fin 1))
      = logit (fun k => val_main_v6 (F := Ideal) x0 x1 (ix2 r k)) (fun k => x2 (ix2 r k))
          (fun k => x4 (ix2 (0 : Fin 1) (lo k))) (fun k => x4 (ix2 (0 : Fin 1) (hi k))) (x5 (ix1 (0 : Fin 1))) := by
  rw [val_main_v12_apply, val_main_v9_apply, bias_col]
  unfold val_main_v7 val_main_v8 logit
  rw [cat_dot]
  rfl

/-- The second gate's logit at row r. -/
theorem logit_beta (x0 : IVec S524288 32) (x1 : FVec Ideal S1000000x64 .f32) (x3 : FVec Ideal S524288x64 .f32)
    (x6 : FVec Ideal S1x128 .f32) (x7 : FVec Ideal S1 .f32) (r : Fin 524288) :
    val_main_v23 (F := Ideal) x0 x1 x3 x6 x7 (ix2 r (0 : Fin 1))
      = logit (fun k => val_main_v6 (F := Ideal) x0 x1 (ix2 r k)) (fun k => x3 (ix2 r k))
          (fun k => x6 (ix2 (0 : Fin 1) (lo k))) (fun k => x6 (ix2 (0 : Fin 1) (hi k))) (x7 (ix1 (0 : Fin 1))) := by
  rw [val_main_v23_apply, val_main_v20_apply]
  have hb : val_main_v22 (F := Ideal) x7 (ix2 r (0 : Fin 1)) = x7 (ix1 (0 : Fin 1)) := by
    rw [val_main_v22_apply, val_main_v21_apply]
    refine congrArg x7 (funext fun a => ?_)
    match a with
    | ⟨0, _⟩ => rfl
  rw [hb]
  unfold val_main_v18 val_main_v19 logit
  rw [show (∑ k : Fin 128, (concatenate S524288x128 1 [⟨S524288x64, val_main_v6 (F := Ideal) x0 x1⟩, ⟨S524288x64, x3⟩] concatenates_S524288x64_S524288x64_S524288x128_d1)
        (lidx_main_v20 (ix2 r (0 : Fin 1)) k) * (transpose S128x1 [1, 0] x6 transposes_S1x128_S128x1_1_0) (ridx_main_v20 (ix2 r (0 : Fin 1)) k))
      = _ from cat_dot (val_main_v6 (F := Ideal) x0 x1) x3 x6 r]
  rfl

/-- The first gate at row r: the activation of its logit. -/
theorem gate_alpha (x0 : IVec S524288 32) (x1 : FVec Ideal S1000000x64 .f32) (x2 : FVec Ideal S524288x64 .f32)
    (x4 : FVec Ideal S1x128 .f32) (x5 : FVec Ideal S1 .f32) (r : Fin 524288) :
    val_main_v17 (F := Ideal) x0 x1 x2 x4 x5 (ix2 r (0 : Fin 1))
      = act (logit (fun k => val_main_v6 (F := Ideal) x0 x1 (ix2 r k)) (fun k => x2 (ix2 r k))
          (fun k => x4 (ix2 (0 : Fin 1) (lo k))) (fun k => x4 (ix2 (0 : Fin 1) (hi k))) (x5 (ix1 (0 : Fin 1)))) := by
  rw [val_main_v17_apply, val_main_v14_apply, val_main_v16_apply, val_main_v13_apply, val_main_v15_apply,
    val_main_cst_apply, val_main_cst_1_apply, logit_alpha]
  rfl

/-- The second gate at row r. -/
theorem gate_beta (x0 : IVec S524288 32) (x1 : FVec Ideal S1000000x64 .f32) (x3 : FVec Ideal S524288x64 .f32)
    (x6 : FVec Ideal S1x128 .f32) (x7 : FVec Ideal S1 .f32) (r : Fin 524288) :
    val_main_v28 (F := Ideal) x0 x1 x3 x6 x7 (ix2 r (0 : Fin 1))
      = act (logit (fun k => val_main_v6 (F := Ideal) x0 x1 (ix2 r k)) (fun k => x3 (ix2 r k))
          (fun k => x6 (ix2 (0 : Fin 1) (lo k))) (fun k => x6 (ix2 (0 : Fin 1) (hi k))) (x7 (ix1 (0 : Fin 1)))) := by
  rw [val_main_v28_apply, val_main_v25_apply, val_main_v27_apply, val_main_v24_apply, val_main_v26_apply,
    val_main_cst_2_apply, val_main_cst_3_apply, logit_beta]
  rfl

/-- The combined features at (r, k): self + α·l1 + β·l2, each gate a column broadcast along the lanes. -/
theorem mix_eq (x0 : IVec S524288 32) (x1 : FVec Ideal S1000000x64 .f32) (x2 x3 : FVec Ideal S524288x64 .f32)
    (x4 : FVec Ideal S1x128 .f32) (x5 : FVec Ideal S1 .f32) (x6 : FVec Ideal S1x128 .f32) (x7 : FVec Ideal S1 .f32)
    (r : Fin 524288) (k : Fin 64) :
    val_main_v34 (F := Ideal) x0 x1 x2 x3 x4 x5 x6 x7 (ix2 r k)
      = mix (fun k => val_main_v6 (F := Ideal) x0 x1 (ix2 r k)) (fun k => x2 (ix2 r k)) (fun k => x3 (ix2 r k))
          (fun k => x4 (ix2 (0 : Fin 1) (lo k))) (fun k => x4 (ix2 (0 : Fin 1) (hi k)))
          (fun k => x6 (ix2 (0 : Fin 1) (lo k))) (fun k => x6 (ix2 (0 : Fin 1) (hi k)))
          (x5 (ix1 (0 : Fin 1))) (x7 (ix1 (0 : Fin 1))) k := by
  have e29 : idx_main_v29 (ix2 r k) = ix2 r (0 : Fin 1) := funext fun a => by
    match a with
    | ⟨0, _⟩ => rfl
    | ⟨1, _⟩ => rfl
  have e32 : idx_main_v32 (ix2 r k) = ix2 r (0 : Fin 1) := funext fun a => by
    match a with
    | ⟨0, _⟩ => rfl
    | ⟨1, _⟩ => rfl
  rw [val_main_v34_apply, val_main_v31_apply, val_main_v33_apply, val_main_v30_apply, val_main_v29_apply,
    val_main_v32_apply, e29, e32, gate_alpha, gate_beta]
  rfl

/-- THE REFERENCE IS G: its last stage, as a function of its arguments, is the encoder function of the gathered
    rows and the other arguments. -/
theorem result_eq (x0 : IVec S524288 32) (x1 : FVec Ideal S1000000x64 .f32) (x2 x3 : FVec Ideal S524288x64 .f32)
    (x4 : FVec Ideal S1x128 .f32) (x5 : FVec Ideal S1 .f32) (x6 : FVec Ideal S1x128 .f32) (x7 : FVec Ideal S1 .f32)
    (x8 : FVec Ideal S64x64 .f32) (x9 : FVec Ideal S64 .f32) :
    val_main_v44 (F := Ideal) x0 x1 x2 x3 x4 x5 x6 x7 x8 x9
      = G (val_main_v6 (F := Ideal) x0 x1) x2 x3 x4 x5 x6 x7 x8 x9 := by
  funext i
  obtain ⟨r, q, rfl⟩ : ∃ (r : Fin 524288) (q : Fin 64), i = ix2 r q := ⟨i 0, i 1, eq_ix2 i⟩
  have hb : val_main_v38 (F := Ideal) x9 (ix2 r q) = x9 (ix1 q) := by
    rw [val_main_v38_apply, val_main_v37_apply]
    refine congrArg x9 (funext fun a => ?_)
    match a with
    | ⟨0, _⟩ => rfl
  have hd : val_main_v36 (F := Ideal) x0 x1 x2 x3 x4 x5 x6 x7 x8 (ix2 r q)
      = ∑ k : Fin 64, mix (fun k => val_main_v6 (F := Ideal) x0 x1 (ix2 r k)) (fun k => x2 (ix2 r k)) (fun k => x3 (ix2 r k))
          (fun k => x4 (ix2 (0 : Fin 1) (lo k))) (fun k => x4 (ix2 (0 : Fin 1) (hi k)))
          (fun k => x6 (ix2 (0 : Fin 1) (lo k))) (fun k => x6 (ix2 (0 : Fin 1) (hi k)))
          (x5 (ix1 (0 : Fin 1))) (x7 (ix1 (0 : Fin 1))) k * x8 (ix2 q k) := by
    rw [val_main_v36_apply]
    refine Finset.sum_congr rfl fun k _ => ?_
    have el : lidx_main_v36 (ix2 r q) k = ix2 r k := funext fun a => by
      match a with
      | ⟨0, _⟩ => rfl
      | ⟨1, _⟩ => rfl
    have er : idx_main_v35 (ridx_main_v36 (ix2 r q) k) = ix2 q k := funext fun a => by
      match a with
      | ⟨0, _⟩ => rfl
      | ⟨1, _⟩ => rfl
    rw [el, mix_eq, val_main_v35_apply, er]
  rw [val_main_v44_apply, val_main_v41_apply, val_main_v43_apply, val_main_v40_apply, val_main_v42_apply,
    val_main_cst_4_apply, val_main_cst_5_apply, val_main_v39_apply, hd, hb]
  rfl

end Cert.Encoder.Ref

end
-- ==== Proof.KernelHost.lean ====
/-
  What the host operations in front of the region leave in the arrays the kernel's windows stage.

  The embedding lookup wraps a negative index by adding the table's height, gathers the rows, and then replaces a row
  by a fill word wherever the wrapped index falls outside [0, 999999]. On indices in [-1000000, 1000000) the wrapped
  index is in range at every row, so the lookup is the plain gather. The other staged arrays are the two halves of
  each gate's weight row and the biases reshaped.
-/
import proofs.«429671_j20375324852398_3_alg».proof.Proof.Gen.KernelIdeal.Frame
import proofs.«429671_j20375324852398_3_alg».proof.Proof.Range
import Idealize.ShloMosaic.Lib.StableHlo.Run
import Idealize.ShloMosaic.Lib.Pipeline.Value
import Idealize.ShloMosaic.Lib.ValueIdx

noncomputable section

namespace Cert.Encoder.Ker

open Cert.KernelIdeal Cert.KernelIdeal.Gen Idealize.ShloMosaic Idealize.ShloMosaic.TcCoe Idealize.SL.Sem
open Idealize.ShloMosaic.StableHlo Idealize.ShloMosaic.ValueIdx Cert.Encoder

/-- The node indices with the negative ones wrapped by the table's height. -/
abbrev wrapped (n : IVec S524288 32) : IVec S524288 32 :=
  select (cmpi .slt n (broadcastInDim S524288 ![] bcast_S_S524288 (constantI S_ 32 0#32)))
    (addi n (broadcastInDim S524288 ![] bcast_S_S524288 (constantI S_ 32 1000000#32))) n

/-- The gather's start indices: the wrapped indices as a column. -/
abbrev starts (n : IVec S524288 32) : IVec S524288x1 32 :=
  broadcastInDim S524288x1 ![0] bcast_S524288_S524288x1_0 (wrapped n)

/-- The rows the gather reads. -/
abbrev gathered (n : IVec S524288 32) (tbl : FVec Ideal S1000000x64 .f32) : FVec Ideal S524288x64 .f32 :=
  Host.gather gather_S1000000x64_S524288x1_S524288x64_1_0_n_n_0_1_164 tbl (starts n)

/-- The range test on the start indices, per row. -/
abbrev inRange (n : IVec S524288 32) : IVec S524288 1 :=
  Host.reduce IntOp.andi
    (andi (cmpi .sge (starts n) (broadcastInDim S524288x1 ![] bcast_S_S524288x1 (constantI S_ 32 0#32)))
      (cmpi .sle (starts n) (broadcastInDim S524288x1 ![0, 1] bcast_S1x1_S524288x1_0_1
        (broadcastInDim S1x1 ![1] bcast_S1_S1x1_1 (constantI S1 32 999999#32)))))
    (constantI S_ 1 1#1) reducesTo_S524288x1_S524288_d1 h_S_

/-- The lookup as the host computes it: the gathered row where the test passes, the fill word elsewhere. -/
abbrev taken (n : IVec S524288 32) (tbl : FVec Ideal S1000000x64 .f32) : FVec Ideal S524288x64 .f32 :=
  select (broadcastInDim S524288x64 ![0] bcast_S524288_S524288x64_0 (inRange n)) (gathered n tbl)
    (broadcastInDim S524288x64 ![] bcast_S_S524288x64 (constant S_ .f32 0x7FC00000#32))

/-- On indices in [-1000000, 1000000) the range test passes at every row, so the lookup is the gather. -/
theorem taken_eq_gathered (n : IVec S524288 32) (tbl : FVec Ideal S1000000x64 .f32)
    (h : ∀ i : S524288.Idx, IntOp.cmpi .sge (n i) 4293967296#32 = 1#1 ∧ IntOp.cmpi .slt (n i) 1000000#32 = 1#1) :
    taken n tbl = gathered n tbl := by
  have hx : ∀ i : S524288x1.Idx,
      (andi (cmpi .sge (starts n) (broadcastInDim S524288x1 ![] bcast_S_S524288x1 (constantI S_ 32 0#32)))
        (cmpi .sle (starts n) (broadcastInDim S524288x1 ![0, 1] bcast_S1x1_S524288x1_0_1
          (broadcastInDim S1x1 ![1] bcast_S1_S1x1_1 (constantI S1 32 999999#32))))) i = 1#1 := fun i => by
    have hs : starts n i = wrapped n (ix1 (i 0)) :=
      broadcastInDim_apply _ bcast_S524288_S524288x1_0 (wrapped n) i (ix1 (i 0)) (fun a => match a with
        | ⟨0, _⟩ => by show (i 0).val = if (524288 : Nat) = 1 then 0 else (i 0).val; rw [if_neg (by decide)])
    show IntOp.andi (IntOp.cmpi .sge (starts n i) 0#32) (IntOp.cmpi .sle (starts n i) 999999#32) = 1#1
    rw [hs]
    exact wrapped_in_range (n (ix1 (i 0))) (h _).1 (h _).2
  funext j
  show Scalar.select (broadcastInDim S524288x64 ![0] bcast_S524288_S524288x64_0 (inRange n) j) (gathered n tbl j) _ = _
  have hm : broadcastInDim S524288x64 ![0] bcast_S524288_S524288x64_0 (inRange n) j = 1#1 := by
    rw [broadcastInDim_apply _ bcast_S524288_S524288x64_0 (inRange n) j (ix1 (j 0)) (fun a => match a with
      | ⟨0, _⟩ => by show (j 0).val = if (524288 : Nat) = 1 then 0 else (j 0).val; rw [if_neg (by decide)])]
    exact reduce_andi_ones _ _ _ _ hx (fun _ => rfl) _
  rw [hm, select_one]

variable (m : (ℓ : Loc nD τ sig) → Buf (Elt Ideal) ℓ)

set_option maxHeartbeats 4000000 in
set_option maxRecDepth 65536 in
/-- The region finds the lookup's result in window 0's array. -/
theorem V_self (c : Dev nD) :
    V m c main_v0 = taken (m ((c.tc : Thread nD τ).loc main_arg0)) (m ((c.tc : Thread nD τ).loc main_arg1)) := by
  dsimp only [V]
  simp only [hostOps0, hostOps0_1, List.flatten_cons, List.flatten_nil, List.append_nil, List.cons_append, List.nil_append]
  after_results_simp
  simp only [TRef.toBuf, TRef.ofBuf, cast_eq]

end Cert.Encoder.Ker

end
-- ==== Proof.KernelPay.lean ====
/-
  The kernel body's store, read at an index, is one row of the encoder.

  At a grid point the body holds a block of 4096 rows of the three feature arrays and the whole weights. A gate's
  logit is two lane sums (a row of the block times a weight row, summed over the 64 lanes) kept as a column, plus the
  bias; the stored value at (p, q) is the activated matrix product of the combined row p with the transposed
  64 × 64 weight at q, plus the bias at q. The format changes in front of the product are the identity on the
  extended reals, and the product into the zero accumulator is the plain sum over the contracted lane.
-/
import proofs.«429671_j20375324852398_3_alg».proof.Proof.Gen.KernelIdeal.Skeleton
import proofs.«429671_j20375324852398_3_alg».proof.Proof.Spec
import Idealize.ShloMosaic.Lib.Pipeline.Value
import Idealize.ShloMosaic.Lib.ValueIdx
import Idealize.ShloMosaic.PureOps.Ideal.Laws

noncomputable section

open scoped BigOperators

namespace Cert.Encoder.Ker

open Cert.KernelIdeal Cert.KernelIdeal.Gen Idealize.ShloMosaic Idealize.ShloMosaic.ValueIdx Cert.Encoder

/-- The sum over the lanes of row p of a [4096, 64] vector. -/
theorem lane_sum (v : FVec Ideal S4096x64 .f32) (p : Fin 4096) :
    multiReduction .add [1] S4096 v 0x00000000#32 reduces_S4096x64_S4096 (.inl rfl) rfl (ix1 p)
      = ∑ k : Fin 64, v (ix2 p k) := by
  refine (Ideal.multiReduction_add_single v 0x00000000#32 reduces_S4096x64_S4096 (.inl rfl) rfl (ix1 p)).trans ?_
  exact Finset.sum_congr rfl fun k _ => congrArg v (funext fun a => by
    match a with
    | ⟨0, _⟩ => rfl
    | ⟨1, _⟩ => rfl)

/-- A vector of 4096 entries kept as a column [4096, 1] reads its entry p at (p, 0). -/
theorem col_apply (v : FVec Ideal S4096 .f32) (p : Fin 4096) :
    shapeCast S4096x1 v shapeCasts_S4096_S4096x1 (ix2 p (0 : Fin 1)) = v (ix1 p) := by
  refine shapeCast_apply v shapeCasts_S4096_S4096x1 (ix2 p (0 : Fin 1)) (ix1 p) ?_
  rw [Shape.rowMajor_val_one, Shape.rowMajor_val_two]
  show p.val = p.val * 1 + 0
  omega

/-- A weight row [1, 64] broadcast down the 4096 rows reads the weight's lane k at (p, k). -/
theorem row_bcast_apply (w : Vec Ideal S1x64 .f32) (p : Fin 4096) (k : Fin 64) :
    broadcastTo S4096x64 (shapeCast S1x64 w shapeCasts_S1x64_S1x64) broadcasts_S1x64_S4096x64 (ix2 p k)
      = w (ix2 (0 : Fin 1) k) := by
  rw [shapeCast_self]
  refine broadcastTo_apply w broadcasts_S1x64_S4096x64 (ix2 p k) (ix2 (0 : Fin 1) k) (fun a => ?_)
  match a with
  | ⟨0, _⟩ => rfl
  | ⟨1, _⟩ => rfl

/-- A bias [1, 1] broadcast down the column reads the bias at (p, 0). -/
theorem scalar_bcast_apply (b : Vec Ideal S1x1 .f32) (p : Fin 4096) :
    broadcastTo S4096x1 (shapeCast S1x1 b shapeCasts_S1x1_S1x1) broadcasts_S1x1_S4096x1 (ix2 p (0 : Fin 1))
      = b (ix2 (0 : Fin 1) (0 : Fin 1)) := by
  rw [shapeCast_self]
  refine broadcastTo_apply b broadcasts_S1x1_S4096x1 (ix2 p (0 : Fin 1)) (ix2 (0 : Fin 1) (0 : Fin 1)) (fun a => ?_)
  match a with
  | ⟨0, _⟩ => rfl
  | ⟨1, _⟩ => rfl

/-- The body's first shape cast is the identity. -/
theorem pay2_eq (x0 : Vec Ideal S4096x64 .f32) : k0_pay2 x0 = x0 := shapeCast_self _ _

/-- The first gate's logit column at row p. -/
theorem pay3_apply (x0 x1 : Vec Ideal S4096x64 .f32) (x3 x4 : Vec Ideal S1x64 .f32) (x5 : Vec Ideal S1x1 .f32) (p : Fin 4096) :
    k0_pay3 x0 x1 x3 x4 x5 (ix2 p (0 : Fin 1))
      = logit (fun k => x0 (ix2 p k)) (fun k => x1 (ix2 p k)) (fun k => x3 (ix2 (0 : Fin 1) k))
          (fun k => x4 (ix2 (0 : Fin 1) k)) (x5 (ix2 (0 : Fin 1) (0 : Fin 1))) := by
  unfold k0_pay3 logit
  rw [pay2_eq]
  show (shapeCast S4096x1 _ shapeCasts_S4096_S4096x1 (ix2 p (0 : Fin 1)) + shapeCast S4096x1 _ shapeCasts_S4096_S4096x1 (ix2 p (0 : Fin 1)))
      + broadcastTo S4096x1 _ broadcasts_S1x1_S4096x1 (ix2 p (0 : Fin 1)) = _
  rw [col_apply, col_apply, lane_sum, lane_sum, scalar_bcast_apply]
  congr 2
  · exact Finset.sum_congr rfl fun k _ => congrArg (x0 (ix2 p k) * ·) (row_bcast_apply x3 p k)
  · exact Finset.sum_congr rfl fun k _ => congrArg (x1 (ix2 p k) * ·) (row_bcast_apply x4 p k)

/-- The second gate's logit column at row p, bias apart (the body adds it in the next payload). -/
theorem pay4_apply (x0 x2 : Vec Ideal S4096x64 .f32) (x6 x7 : Vec Ideal S1x64 .f32) (p : Fin 4096) :
    k0_pay4 x0 x2 x6 x7 (ix2 p (0 : Fin 1))
      = (∑ k : Fin 64, x0 (ix2 p k) * x6 (ix2 (0 : Fin 1) k)) + ∑ k : Fin 64, x2 (ix2 p k) * x7 (ix2 (0 : Fin 1) k) := by
  unfold k0_pay4
  rw [pay2_eq]
  show shapeCast S4096x1 _ shapeCasts_S4096_S4096x1 (ix2 p (0 : Fin 1)) + shapeCast S4096x1 _ shapeCasts_S4096_S4096x1 (ix2 p (0 : Fin 1)) = _
  rw [col_apply, col_apply, lane_sum, lane_sum]
  congr 1
  · exact Finset.sum_congr rfl fun k _ => congrArg (x0 (ix2 p k) * ·) (row_bcast_apply x6 p k)
  · exact Finset.sum_congr rfl fun k _ => congrArg (x2 (ix2 p k) * ·) (row_bcast_apply x7 p k)

/-- The second gate's bias column at row p. -/
theorem pay5_apply (x8 : Vec Ideal S1x1 .f32) (p : Fin 4096) :
    k0_pay5 x8 (ix2 p (0 : Fin 1)) = x8 (ix2 (0 : Fin 1) (0 : Fin 1)) := by
  unfold k0_pay5
  exact scalar_bcast_apply x8 p

/-! ## The matrix product at an index

The product contracts the block's lane axis with the first axis of its right operand: at (p, q) and contraction
coordinate k the operands are read at (p, k) and (k, q). -/

theorem lhs_mm_0 (i : S4096x64.Idx) (c : dot_S4096x64_S64x64_S4096x64_1_0_0_1_n_n.contr.Idx) :
    (dot_S4096x64_S64x64_S4096x64_1_0_0_1_n_n.lhsIdx i c 0).val = (i 0).val := by
  unfold DotDims.lhsIdx
  rw [dif_neg (show ¬(0 : Fin S4096x64.rank) ∈ dot_S4096x64_S64x64_S4096x64_1_0_0_1_n_n.lhsBatch by decide), dif_pos (show (0 : Fin S4096x64.rank) ∈ dot_S4096x64_S64x64_S4096x64_1_0_0_1_n_n.lhsNonContracting by decide)]
  rfl
theorem lhs_mm_1 (i : S4096x64.Idx) (c : dot_S4096x64_S64x64_S4096x64_1_0_0_1_n_n.contr.Idx) :
    (dot_S4096x64_S64x64_S4096x64_1_0_0_1_n_n.lhsIdx i c 1).val = (c ⟨0, by decide⟩).val :=
  dot_S4096x64_S64x64_S4096x64_1_0_0_1_n_n.lhsIdx_val_of_single rfl i c
theorem rhs_mm_0 (i : S4096x64.Idx) (c : dot_S4096x64_S64x64_S4096x64_1_0_0_1_n_n.contr.Idx) :
    (dot_S4096x64_S64x64_S4096x64_1_0_0_1_n_n.rhsIdx i c 0).val = (c ⟨0, by decide⟩).val :=
  dot_S4096x64_S64x64_S4096x64_1_0_0_1_n_n.rhsIdx_val_of_single rfl i c
theorem rhs_mm_1 (i : S4096x64.Idx) (c : dot_S4096x64_S64x64_S4096x64_1_0_0_1_n_n.contr.Idx) :
    (dot_S4096x64_S64x64_S4096x64_1_0_0_1_n_n.rhsIdx i c 1).val = (i 1).val := by
  unfold DotDims.rhsIdx
  rw [dif_neg (show ¬(1 : Fin S64x64.rank) ∈ dot_S4096x64_S64x64_S4096x64_1_0_0_1_n_n.rhsBatch by decide), dif_pos (show (1 : Fin S64x64.rank) ∈ dot_S4096x64_S64x64_S4096x64_1_0_0_1_n_n.rhsNonContracting by decide)]
  rfl

/-- The product into the zero accumulator at (p, q): the sum over the lane k of left (p, k) times right (k, q). -/
theorem mm_apply {φ₁ φ₂ : FTy} (l : FVec Ideal S4096x64 φ₁) (r : FVec Ideal S64x64 φ₂) (p : Fin 4096) (q : Fin 64) :
    matmul dot_S4096x64_S64x64_S4096x64_1_0_0_1_n_n none l r (constant S4096x64 .f32 0x00000000#32) (ix2 p q)
      = ∑ k : Fin 64, l (ix2 p k) * r (ix2 k q) := by
  simp only [matmul]
  rw [Ideal.matmul_constant_zero_apply, ← Equiv.sum_comp (contrEquiv1 dot_S4096x64_S64x64_S4096x64_1_0_0_1_n_n 64 rfl rfl).symm]
  refine Finset.sum_congr rfl fun k _ => ?_
  have hk := contrEquiv1_symm_val dot_S4096x64_S64x64_S4096x64_1_0_0_1_n_n 64 rfl rfl k
  have el : dot_S4096x64_S64x64_S4096x64_1_0_0_1_n_n.lhsIdx (ix2 p q) ((contrEquiv1 dot_S4096x64_S64x64_S4096x64_1_0_0_1_n_n 64 rfl rfl).symm k) = ix2 p k := funext fun a => Fin.ext (by
    match a with
    | ⟨0, _⟩ => exact lhs_mm_0 _ _
    | ⟨1, _⟩ => exact (lhs_mm_1 _ _).trans hk)
  have er : dot_S4096x64_S64x64_S4096x64_1_0_0_1_n_n.rhsIdx (ix2 p q) ((contrEquiv1 dot_S4096x64_S64x64_S4096x64_1_0_0_1_n_n 64 rfl rfl).symm k) = ix2 k q := funext fun a => Fin.ext (by
    match a with
    | ⟨0, _⟩ => exact (rhs_mm_0 _ _).trans hk
    | ⟨1, _⟩ => exact rhs_mm_1 _ _)
  rw [el, er]

/-- A column [4096, 1] broadcast along the 64 lanes reads its entry (p, 0) at (p, k). -/
theorem col_bcast_apply (v : FVec Ideal S4096x1 .f32) (p : Fin 4096) (k : Fin 64) :
    broadcastTo S4096x64 v broadcasts_S4096x1_S4096x64 (ix2 p k) = v (ix2 p (0 : Fin 1)) := by
  refine broadcastTo_apply v broadcasts_S4096x1_S4096x64 (ix2 p k) (ix2 p (0 : Fin 1)) (fun a => ?_)
  match a with
  | ⟨0, _⟩ => rfl
  | ⟨1, _⟩ => rfl

/-- The transposed weight at (k, q) is the weight at (q, k). -/
theorem transposed_apply {φ : FTy} (w : FVec Ideal S64x64 φ) (k q : Fin 64) :
    transpose S64x64 [1, 0] w transposes_S64x64_p1_0_S64x64 (ix2 k q) = w (ix2 q k) := by
  refine transpose_apply [1, 0] w transposes_S64x64_p1_0_S64x64 (ix2 k q) (ix2 q k) (fun b => ?_)
  match b with
  | ⟨0, _⟩ => rfl
  | ⟨1, _⟩ => rfl

/-- The store's payload over ANY values in the places of the earlier payloads, at (p, q): the activation of the
    product's sum over the lanes of the combined row, plus the bias; the gates are the activations of the two logit
    columns at (p, 0), the second with its bias column added first. -/
theorem pay1_core (v1 v2 v3 : FVec Ideal S4096x64 .f32) (v20 v33 v36 : FVec Ideal S4096x1 .f32)
    (v55 : Vec Ideal S64x64 .f32) (v59 : Vec Ideal S1x64 .f32) (p : Fin 4096) (q : Fin 64) :
    k0_pay1 v1 v2 v3 v20 v33 v36 v55 v59 (ix2 p q)
      = act ((∑ k : Fin 64, ((v1 (ix2 p k) + act (v20 (ix2 p (0 : Fin 1))) * v2 (ix2 p k))
            + act (v33 (ix2 p (0 : Fin 1)) + v36 (ix2 p (0 : Fin 1))) * v3 (ix2 p k)) * v55 (ix2 q k))
          + v59 (ix2 (0 : Fin 1) q)) := by
  unfold k0_pay1
  dsimp only
  show act (matmul dot_S4096x64_S64x64_S4096x64_1_0_0_1_n_n none _ _ (constant S4096x64 .f32 0x00000000#32) (ix2 p q)
      + broadcastTo S4096x64 (shapeCast S1x64 v59 shapeCasts_S1x64_S1x64) broadcasts_S1x64_S4096x64 (ix2 p q)) = _
  rw [mm_apply, row_bcast_apply]
  congr 2
  refine Finset.sum_congr rfl fun k _ => ?_
  rw [transposed_apply]
  refine congrArg (· * v55 (ix2 q k)) ?_
  show (v1 (ix2 p k) + broadcastTo S4096x64 _ broadcasts_S4096x1_S4096x64 (ix2 p k) * v2 (ix2 p k))
      + broadcastTo S4096x64 _ broadcasts_S4096x1_S4096x64 (ix2 p k) * v3 (ix2 p k) = _
  rw [col_bcast_apply, col_bcast_apply]
  rfl

/-- THE STORE'S PAYLOAD AT (p, q): row p of the block through the encoder, lane q. -/
theorem pay1_apply (x0 x1 x2 : Vec Ideal S4096x64 .f32) (x3 x4 : Vec Ideal S1x64 .f32) (x5 : Vec Ideal S1x1 .f32)
    (x6 x7 : Vec Ideal S1x64 .f32) (x8 : Vec Ideal S1x1 .f32) (x9 : Vec Ideal S64x64 .f32) (x10 : Vec Ideal S1x64 .f32)
    (p : Fin 4096) (q : Fin 64) :
    k0_pay1 (k0_pay2 x0) x1 x2 (k0_pay3 x0 x1 x3 x4 x5) (k0_pay4 x0 x2 x6 x7) (k0_pay5 x8) x9 x10 (ix2 p q)
      = rowOut (fun k => x0 (ix2 p k)) (fun k => x1 (ix2 p k)) (fun k => x2 (ix2 p k))
          (fun k => x3 (ix2 (0 : Fin 1) k)) (fun k => x4 (ix2 (0 : Fin 1) k))
          (fun k => x6 (ix2 (0 : Fin 1) k)) (fun k => x7 (ix2 (0 : Fin 1) k))
          (x5 (ix2 (0 : Fin 1) (0 : Fin 1))) (x8 (ix2 (0 : Fin 1) (0 : Fin 1)))
          (fun q k => x9 (ix2 q k)) (fun q => x10 (ix2 (0 : Fin 1) q)) q := by
  rw [pay1_core, pay2_eq, pay3_apply, pay4_apply, pay5_apply]
  rfl

end Cert.Encoder.Ker

end
-- ==== Proof.KernelHostW.lean ====
/-
  The weights as the region finds them: the host slices each gate's weight row [1, 128] into its two halves
  [1, 64] — lanes 0..63 for the embedding row, lanes 64..127 for the neighbour row — and reshapes the two gate
  biases to [1, 1] and the layer's bias to [1, 64]. Read at an index, each is the argument at the matching index.
-/
import proofs.«429671_j20375324852398_3_alg».proof.Proof.Gen.KernelIdeal.Frame
import proofs.«429671_j20375324852398_3_alg».proof.Proof.Spec
import Idealize.ShloMosaic.Lib.StableHlo.Run
import Idealize.ShloMosaic.Lib.Pipeline.Value
import Idealize.ShloMosaic.Lib.ValueIdx

noncomputable section

namespace Cert.Encoder.Ker

open Cert.KernelIdeal Cert.KernelIdeal.Gen Idealize.ShloMosaic Idealize.ShloMosaic.TcCoe Idealize.SL.Sem
open Idealize.ShloMosaic.StableHlo Idealize.ShloMosaic.ValueIdx Cert.Encoder

variable (m : (ℓ : Loc nD τ sig) → Buf (Elt Ideal) ℓ)

set_option maxHeartbeats 4000000 in
theorem V_aw1 (c : Dev nD) : (V m c main_v1 : S1x64.Idx → EReal)
    = extractStridedSlice S1x64 ![0, 0] (m ((c.tc : Thread nD τ).loc main_arg4)) slices_S1x128_S1x64_0_0 := by
  dsimp only [V]
  simp only [hostOps0, hostOps0_1, List.flatten_cons, List.flatten_nil, List.append_nil, List.cons_append, List.nil_append]
  after_results_simp <;> rfl

set_option maxHeartbeats 4000000 in
theorem V_aw2 (c : Dev nD) : (V m c main_v2 : S1x64.Idx → EReal)
    = extractStridedSlice S1x64 ![0, 64] (m ((c.tc : Thread nD τ).loc main_arg4)) slices_S1x128_S1x64_0_64 := by
  dsimp only [V]
  simp only [hostOps0, hostOps0_1, List.flatten_cons, List.flatten_nil, List.append_nil, List.cons_append, List.nil_append]
  after_results_simp <;> rfl

set_option maxHeartbeats 4000000 in
theorem V_bw1 (c : Dev nD) : (V m c main_v3 : S1x64.Idx → EReal)
    = extractStridedSlice S1x64 ![0, 0] (m ((c.tc : Thread nD τ).loc main_arg6)) slices_S1x128_S1x64_0_0 := by
  dsimp only [V]
  simp only [hostOps0, hostOps0_1, List.flatten_cons, List.flatten_nil, List.append_nil, List.cons_append, List.nil_append]
  after_results_simp <;> rfl

set_option maxHeartbeats 4000000 in
theorem V_bw2 (c : Dev nD) : (V m c main_v4 : S1x64.Idx → EReal)
    = extractStridedSlice S1x64 ![0, 64] (m ((c.tc : Thread nD τ).loc main_arg6)) slices_S1x128_S1x64_0_64 := by
  dsimp only [V]
  simp only [hostOps0, hostOps0_1, List.flatten_cons, List.flatten_nil, List.append_nil, List.cons_append, List.nil_append]
  after_results_simp <;> rfl

set_option maxHeartbeats 4000000 in
theorem V_ab (c : Dev nD) : (V m c main_v5 : S1x1.Idx → EReal)
    = shapeCast S1x1 (m ((c.tc : Thread nD τ).loc main_arg5)) shapeCasts_S1_S1x1 := by
  dsimp only [V]
  simp only [hostOps0, hostOps0_1, List.flatten_cons, List.flatten_nil, List.append_nil, List.cons_append, List.nil_append]
  after_results_simp <;> rfl

set_option maxHeartbeats 4000000 in
theorem V_bb (c : Dev nD) : (V m c main_v6 : S1x1.Idx → EReal)
    = shapeCast S1x1 (m ((c.tc : Thread nD τ).loc main_arg7)) shapeCasts_S1_S1x1 := by
  dsimp only [V]
  simp only [hostOps0, hostOps0_1, List.flatten_cons, List.flatten_nil, List.append_nil, List.cons_append, List.nil_append]
  after_results_simp <;> rfl

set_option maxHeartbeats 4000000 in
theorem V_gb (c : Dev nD) : (V m c main_v7 : S1x64.Idx → EReal)
    = shapeCast S1x64 (m ((c.tc : Thread nD τ).loc main_arg9)) shapeCasts_S64_S1x64 := by
  dsimp only [V]
  simp only [hostOps0, hostOps0_1, List.flatten_cons, List.flatten_nil, List.append_nil, List.cons_append, List.nil_append]
  after_results_simp <;> rfl

/-! ## Read at an index -/

/-- Lane k of the first half of a weight row. -/
theorem half1_apply (w : FVec Ideal S1x128 .f32) (k : Fin 64) :
    extractStridedSlice S1x64 ![0, 0] w slices_S1x128_S1x64_0_0 (ix2 (0 : Fin 1) k) = w (ix2 (0 : Fin 1) (lo k)) := by
  refine extractStridedSlice_apply ![0, 0] w slices_S1x128_S1x64_0_0 (ix2 (0 : Fin 1) k) (ix2 (0 : Fin 1) (lo k)) (fun a => ?_)
  match a with
  | ⟨0, _⟩ => rfl
  | ⟨1, _⟩ => show k.val = 0 + k.val; omega

/-- Lane k of the second half of a weight row. -/
theorem half2_apply (w : FVec Ideal S1x128 .f32) (k : Fin 64) :
    extractStridedSlice S1x64 ![0, 64] w slices_S1x128_S1x64_0_64 (ix2 (0 : Fin 1) k) = w (ix2 (0 : Fin 1) (hi k)) := by
  refine extractStridedSlice_apply ![0, 64] w slices_S1x128_S1x64_0_64 (ix2 (0 : Fin 1) k) (ix2 (0 : Fin 1) (hi k)) (fun a => ?_)
  match a with
  | ⟨0, _⟩ => rfl
  | ⟨1, _⟩ => rfl

/-- A bias [1] reshaped to [1, 1]. -/
theorem bias11_apply (b : FVec Ideal S1 .f32) :
    shapeCast S1x1 b shapeCasts_S1_S1x1 (ix2 (0 : Fin 1) (0 : Fin 1)) = b (ix1 (0 : Fin 1)) := by
  refine shapeCast_apply b shapeCasts_S1_S1x1 (ix2 (0 : Fin 1) (0 : Fin 1)) (ix1 (0 : Fin 1)) ?_
  rw [Shape.rowMajor_val_one, Shape.rowMajor_val_two]
  rfl

/-- The layer's bias [64] reshaped to [1, 64]. -/
theorem bias64_apply (b : FVec Ideal S64 .f32) (q : Fin 64) :
    shapeCast S1x64 b shapeCasts_S64_S1x64 (ix2 (0 : Fin 1) q) = b (ix1 q) := by
  refine shapeCast_apply b shapeCasts_S64_S1x64 (ix2 (0 : Fin 1) q) (ix1 q) ?_
  rw [Shape.rowMajor_val_one, Shape.rowMajor_val_two]
  show q.val = 0 * 64 + q.val
  omega

end Cert.Encoder.Ker

end
-- ==== Proof.KernelValue.lean ====
/-
  The kernel's result array is the encoder function of the arrays its windows stage.

  The grid has 128 points; point t stages rows 4096·t … 4096·t + 4095 of the three feature arrays and of the result,
  and the whole of every weight array. So the block point t writes back is block t of one whole-array function: the
  stored value at (p, q) of the block is row 4096·t + p of the encoder, lane q. The 128 blocks tile the 524288 rows,
  hence the array ends holding that function everywhere.
-/
import proofs.«429671_j20375324852398_3_alg».proof.Proof.Gen.KernelIdeal.Value
import proofs.«429671_j20375324852398_3_alg».proof.Proof.KernelPay
import proofs.«429671_j20375324852398_3_alg».proof.Proof.KernelHostW

noncomputable section

namespace Cert.Encoder.Ker

open Cert.KernelIdeal Cert.KernelIdeal.Gen Idealize.ShloMosaic Idealize.ShloMosaic.TcCoe Idealize.SL.Sem
open Idealize.ShloMosaic.Pipeline (Dat)
open Idealize.ShloMosaic.ValueIdx Cert.Encoder

variable (m : (ℓ : Loc nD τ sig) → Buf (Elt Ideal) ℓ) (ρ : Dev nD → PrngReg)

theorem hz : (![0, 0] : Fin 2 → Nat) = fun _ => 0 := funext fun a => by fin_cases a <;> rfl

/-- The printed index maps, decided over the grid: the three feature windows and the result window are at block
    (t, 0) at point t, every weight window at block (0, 0). -/
theorem idx_facts : ∀ t : Fin cfg0.N,
    win0_11.index t (0 : Fin 2) = t.val ∧ win0_11.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0 :=
  (by decide +kernel : ∀ t : Fin grid0.N, _)

theorem point_lt (t : Fin cfg0.N) : t.val < 128 :=
  lt_of_lt_of_eq t.isLt (show cfg0.N = 128 from N_0)

/-- Row p of point t's block is row 4096·t + p of the array. -/
abbrev row (t : Fin cfg0.N) (p : Fin 4096) : Fin 524288 :=
  ⟨t.val * 4096 + p.val, by have := point_lt t; have := p.isLt; omega⟩

/-! ## Each window's block, read at an index -/

theorem blk_self (c : Dev nD) (t : Fin cfg0.N) (p : Fin 4096) (k : Fin 64) :
    (iblk m c 0 t : Vec Ideal S4096x64 .f32) (ix2 p k) = V m c main_v0 (ix2 (row t p) k) := by
  obtain ⟨-, -, e0, e1, -⟩ := idx_facts t
  show V m c main_v0 (((cfg0.win 0).blk t).view.emb (ix2 p k)) = _
  refine congrArg (V m c main_v0) (funext fun a => Fin.ext ?_)
  match a with
  | ⟨0, _⟩ => show win0_0.index t (0 : Fin 2) * 4096 + 1 * p.val = t.val * 4096 + p.val; omega
  | ⟨1, _⟩ => show win0_0.index t (1 : Fin 2) * 64 + 1 * k.val = k.val; omega

theorem blk_l1 (c : Dev nD) (t : Fin cfg0.N) (p : Fin 4096) (k : Fin 64) :
    (iblk m c 1 t : Vec Ideal S4096x64 .f32) (ix2 p k) = V m c main_arg2 (ix2 (row t p) k) := by
  obtain ⟨-, -, -, -, e0, e1, -⟩ := idx_facts t
  show V m c main_arg2 (((cfg0.win 1).blk t).view.emb (ix2 p k)) = _
  refine congrArg (V m c main_arg2) (funext fun a => Fin.ext ?_)
  match a with
  | ⟨0, _⟩ => show win0_1.index t (0 : Fin 2) * 4096 + 1 * p.val = t.val * 4096 + p.val; omega
  | ⟨1, _⟩ => show win0_1.index t (1 : Fin 2) * 64 + 1 * k.val = k.val; omega

theorem blk_l2 (c : Dev nD) (t : Fin cfg0.N) (p : Fin 4096) (k : Fin 64) :
    (iblk m c 2 t : Vec Ideal S4096x64 .f32) (ix2 p k) = V m c main_arg3 (ix2 (row t p) k) := by
  obtain ⟨-, -, -, -, -, -, e0, e1, -⟩ := idx_facts t
  show V m c main_arg3 (((cfg0.win 2).blk t).view.emb (ix2 p k)) = _
  refine congrArg (V m c main_arg3) (funext fun a => Fin.ext ?_)
  match a with
  | ⟨0, _⟩ => show win0_2.index t (0 : Fin 2) * 4096 + 1 * p.val = t.val * 4096 + p.val; omega
  | ⟨1, _⟩ => show win0_2.index t (1 : Fin 2) * 64 + 1 * k.val = k.val; omega

theorem blk_aw1 (c : Dev nD) (t : Fin cfg0.N) (k : Fin 64) :
    (iblk m c 3 t : Vec Ideal S1x64 .f32) (ix2 (0 : Fin 1) k) = V m c main_v1 (ix2 (0 : Fin 1) k) := by
  obtain ⟨-, -, -, -, -, -, -, -, e0, e1, -⟩ := idx_facts t
  show V m c main_v1 (((cfg0.win 3).blk t).view.emb (ix2 (0 : Fin 1) k)) = _
  refine congrArg (V m c main_v1) (funext fun a => Fin.ext ?_)
  match a with
  | ⟨0, _⟩ => show win0_3.index t (0 : Fin 2) * 1 + 1 * 0 = 0; omega
  | ⟨1, _⟩ => show win0_3.index t (1 : Fin 2) * 64 + 1 * k.val = k.val; omega

theorem blk_aw2 (c : Dev nD) (t : Fin cfg0.N) (k : Fin 64) :
    (iblk m c 4 t : Vec Ideal S1x64 .f32) (ix2 (0 : Fin 1) k) = V m c main_v2 (ix2 (0 : Fin 1) k) := by
  obtain ⟨-, -, -, -, -, -, -, -, -, -, e0, e1, -⟩ := idx_facts t
  show V m c main_v2 (((cfg0.win 4).blk t).view.emb (ix2 (0 : Fin 1) k)) = _
  refine congrArg (V m c main_v2) (funext fun a => Fin.ext ?_)
  match a with
  | ⟨0, _⟩ => show win0_4.index t (0 : Fin 2) * 1 + 1 * 0 = 0; omega
  | ⟨1, _⟩ => show win0_4.index t (1 : Fin 2) * 64 + 1 * k.val = k.val; omega

theorem blk_ab (c : Dev nD) (t : Fin cfg0.N) :
    (iblk m c 5 t : Vec Ideal S1x1 .f32) (ix2 (0 : Fin 1) (0 : Fin 1)) = V m c main_v5 (ix2 (0 : Fin 1) (0 : Fin 1)) := by
  obtain ⟨-, -, -, -, -, -, -, -, -, -, -, -, e0, e1, -⟩ := idx_facts t
  show V m c main_v5 (((cfg0.win 5).blk t).view.emb (ix2 (0 : Fin 1) (0 : Fin 1))) = _
  refine congrArg (V m c main_v5) (funext fun a => Fin.ext ?_)
  match a with
  | ⟨0, _⟩ => show win0_5.index t (0 : Fin 2) * 1 + 1 * 0 = 0; omega
  | ⟨1, _⟩ => show win0_5.index t (1 : Fin 2) * 1 + 1 * 0 = 0; omega

theorem blk_bw1 (c : Dev nD) (t : Fin cfg0.N) (k : Fin 64) :
    (iblk m c 6 t : Vec Ideal S1x64 .f32) (ix2 (0 : Fin 1) k) = V m c main_v3 (ix2 (0 : Fin 1) k) := by
  obtain ⟨-, -, -, -, -, -, -, -, -, -, -, -, -, -, e0, e1, -⟩ := idx_facts t
  show V m c main_v3 (((cfg0.win 6).blk t).view.emb (ix2 (0 : Fin 1) k)) = _
  refine congrArg (V m c main_v3) (funext fun a => Fin.ext ?_)
  match a with
  | ⟨0, _⟩ => show win0_6.index t (0 : Fin 2) * 1 + 1 * 0 = 0; omega
  | ⟨1, _⟩ => show win0_6.index t (1 : Fin 2) * 64 + 1 * k.val = k.val; omega

theorem blk_bw2 (c : Dev nD) (t : Fin cfg0.N) (k : Fin 64) :
    (iblk m c 7 t : Vec Ideal S1x64 .f32) (ix2 (0 : Fin 1) k) = V m c main_v4 (ix2 (0 : Fin 1) k) := by
  obtain ⟨-, -, -, -, -, -, -, -, -, -, -, -, -, -, -, -, e0, e1, -⟩ := idx_facts t
  show V m c main_v4 (((cfg0.win 7).blk t).view.emb (ix2 (0 : Fin 1) k)) = _
  refine congrArg (V m c main_v4) (funext fun a => Fin.ext ?_)
  match a with
  | ⟨0, _⟩ => show win0_7.index t (0 : Fin 2) * 1 + 1 * 0 = 0; omega
  | ⟨1, _⟩ => show win0_7.index t (1 : Fin 2) * 64 + 1 * k.val = k.val; omega

theorem blk_bb (c : Dev nD) (t : Fin cfg0.N) :
    (iblk m c 8 t : Vec Ideal S1x1 .f32) (ix2 (0 : Fin 1) (0 : Fin 1)) = V m c main_v6 (ix2 (0 : Fin 1) (0 : Fin 1)) := by
  obtain ⟨-, -, -, -, -, -, -, -, -, -, -, -, -, -, -, -, -, -, e0, e1, -⟩ := idx_facts t
  show V m c main_v6 (((cfg0.win 8).blk t).view.emb (ix2 (0 : Fin 1) (0 : Fin 1))) = _
  refine congrArg (V m c main_v6) (funext fun a => Fin.ext ?_)
  match a with
  | ⟨0, _⟩ => show win0_8.index t (0 : Fin 2) * 1 + 1 * 0 = 0; omega
  | ⟨1, _⟩ => show win0_8.index t (1 : Fin 2) * 1 + 1 * 0 = 0; omega

theorem blk_gw (c : Dev nD) (t : Fin cfg0.N) (q k : Fin 64) :
    (iblk m c 9 t : Vec Ideal S64x64 .f32) (ix2 q k) = V m c main_arg8 (ix2 q k) := by
  obtain ⟨-, -, -, -, -, -, -, -, -, -, -, -, -, -, -, -, -, -, -, -, e0, e1, -⟩ := idx_facts t
  show V m c main_arg8 (((cfg0.win 9).blk t).view.emb (ix2 q k)) = _
  refine congrArg (V m c main_arg8) (funext fun a => Fin.ext ?_)
  match a with
  | ⟨0, _⟩ => show win0_9.index t (0 : Fin 2) * 64 + 1 * q.val = q.val; omega
  | ⟨1, _⟩ => show win0_9.index t (1 : Fin 2) * 64 + 1 * k.val = k.val; omega

theorem blk_gb (c : Dev nD) (t : Fin cfg0.N) (q : Fin 64) :
    (iblk m c 10 t : Vec Ideal S1x64 .f32) (ix2 (0 : Fin 1) q) = V m c main_v7 (ix2 (0 : Fin 1) q) := by
  obtain ⟨-, -, -, -, -, -, -, -, -, -, -, -, -, -, -, -, -, -, -, -, -, -, e0, e1⟩ := idx_facts t
  show V m c main_v7 (((cfg0.win 10).blk t).view.emb (ix2 (0 : Fin 1) q)) = _
  refine congrArg (V m c main_v7) (funext fun a => Fin.ext ?_)
  match a with
  | ⟨0, _⟩ => show win0_10.index t (0 : Fin 2) * 1 + 1 * 0 = 0; omega
  | ⟨1, _⟩ => show win0_10.index t (1 : Fin 2) * 64 + 1 * q.val = q.val; omega

/-! ## The weights' blocks are the arguments -/

theorem w_aw1 (c : Dev nD) (t : Fin cfg0.N) (k : Fin 64) :
    (iblk m c 3 t : Vec Ideal S1x64 .f32) (ix2 (0 : Fin 1) k) = m ((c.tc : Thread nD τ).loc main_arg4) (ix2 (0 : Fin 1) (lo k)) :=
  (blk_aw1 m c t k).trans ((congrFun (V_aw1 m c) _).trans (half1_apply _ k))
theorem w_aw2 (c : Dev nD) (t : Fin cfg0.N) (k : Fin 64) :
    (iblk m c 4 t : Vec Ideal S1x64 .f32) (ix2 (0 : Fin 1) k) = m ((c.tc : Thread nD τ).loc main_arg4) (ix2 (0 : Fin 1) (hi k)) :=
  (blk_aw2 m c t k).trans ((congrFun (V_aw2 m c) _).trans (half2_apply _ k))
theorem w_bw1 (c : Dev nD) (t : Fin cfg0.N) (k : Fin 64) :
    (iblk m c 6 t : Vec Ideal S1x64 .f32) (ix2 (0 : Fin 1) k) = m ((c.tc : Thread nD τ).loc main_arg6) (ix2 (0 : Fin 1) (lo k)) :=
  (blk_bw1 m c t k).trans ((congrFun (V_bw1 m c) _).trans (half1_apply _ k))
theorem w_bw2 (c : Dev nD) (t : Fin cfg0.N) (k : Fin 64) :
    (iblk m c 7 t : Vec Ideal S1x64 .f32) (ix2 (0 : Fin 1) k) = m ((c.tc : Thread nD τ).loc main_arg6) (ix2 (0 : Fin 1) (hi k)) :=
  (blk_bw2 m c t k).trans ((congrFun (V_bw2 m c) _).trans (half2_apply _ k))
theorem w_ab (c : Dev nD) (t : Fin cfg0.N) :
    (iblk m c 5 t : Vec Ideal S1x1 .f32) (ix2 (0 : Fin 1) (0 : Fin 1)) = m ((c.tc : Thread nD τ).loc main_arg5) (ix1 (0 : Fin 1)) :=
  (blk_ab m c t).trans ((congrFun (V_ab m c) _).trans (bias11_apply _))
theorem w_bb (c : Dev nD) (t : Fin cfg0.N) :
    (iblk m c 8 t : Vec Ideal S1x1 .f32) (ix2 (0 : Fin 1) (0 : Fin 1)) = m ((c.tc : Thread nD τ).loc main_arg7) (ix1 (0 : Fin 1)) :=
  (blk_bb m c t).trans ((congrFun (V_bb m c) _).trans (bias11_apply _))
theorem w_gw (c : Dev nD) (t : Fin cfg0.N) (q k : Fin 64) :
    (iblk m c 9 t : Vec Ideal S64x64 .f32) (ix2 q k) = m ((c.tc : Thread nD τ).loc main_arg8) (ix2 q k) :=
  (blk_gw m c t q k).trans (congrFun (V_main_arg8 m c) _)
theorem w_gb (c : Dev nD) (t : Fin cfg0.N) (q : Fin 64) :
    (iblk m c 10 t : Vec Ideal S1x64 .f32) (ix2 (0 : Fin 1) q) = m ((c.tc : Thread nD τ).loc main_arg9) (ix1 q) :=
  (blk_gb m c t q).trans ((congrFun (V_gb m c) _).trans (bias64_apply _ q))
theorem f_l1 (c : Dev nD) (t : Fin cfg0.N) (p : Fin 4096) (k : Fin 64) :
    (iblk m c 1 t : Vec Ideal S4096x64 .f32) (ix2 p k) = m ((c.tc : Thread nD τ).loc main_arg2) (ix2 (row t p) k) :=
  (blk_l1 m c t p k).trans (congrFun (V_main_arg2 m c) _)
theorem f_l2 (c : Dev nD) (t : Fin cfg0.N) (p : Fin 4096) (k : Fin 64) :
    (iblk m c 2 t : Vec Ideal S4096x64 .f32) (ix2 p k) = m ((c.tc : Thread nD τ).loc main_arg3) (ix2 (row t p) k) :=
  (blk_l2 m c t p k).trans (congrFun (V_main_arg3 m c) _)

/-- A row of the encoder depends on its inputs lane by lane. -/
theorem rowOut_congr {s s' a a' b b' u₁ u₁' u₂ u₂' v₁ v₁' v₂ v₂' : Fin 64 → Ideal .f32} {cu cu' cv cv' : Ideal .f32}
    {g g' : Fin 64 → Fin 64 → Ideal .f32} {d d' : Fin 64 → Ideal .f32} (q : Fin 64)
    (hs : ∀ k, s k = s' k) (ha : ∀ k, a k = a' k) (hb : ∀ k, b k = b' k) (hu₁ : ∀ k, u₁ k = u₁' k) (hu₂ : ∀ k, u₂ k = u₂' k)
    (hv₁ : ∀ k, v₁ k = v₁' k) (hv₂ : ∀ k, v₂ k = v₂' k) (hcu : cu = cu') (hcv : cv = cv')
    (hg : ∀ q k, g q k = g' q k) (hd : ∀ q, d q = d' q) :
    rowOut s a b u₁ u₂ v₁ v₂ cu cv g d q = rowOut s' a' b' u₁' u₂' v₁' v₂' cu' cv' g' d' q := by
  obtain rfl : s = s' := funext hs
  obtain rfl : a = a' := funext ha
  obtain rfl : b = b' := funext hb
  obtain rfl : u₁ = u₁' := funext hu₁
  obtain rfl : u₂ = u₂' := funext hu₂
  obtain rfl : v₁ = v₁' := funext hv₁
  obtain rfl : v₂ = v₂' := funext hv₂
  obtain rfl : g = g' := funext fun q => funext (hg q)
  obtain rfl : d = d' := funext hd
  subst hcu hcv
  rfl

/-! ## The whole array -/

/-- What the result array ends holding: the encoder function of the looked-up rows as the region finds them and of
    the other arguments. -/
def Gk (c : Dev nD) : FVec Ideal S524288x64 .f32 :=
  G (V m c main_v0) (m ((c.tc : Thread nD τ).loc main_arg2)) (m ((c.tc : Thread nD τ).loc main_arg3))
    (m ((c.tc : Thread nD τ).loc main_arg4)) (m ((c.tc : Thread nD τ).loc main_arg5))
    (m ((c.tc : Thread nD τ).loc main_arg6)) (m ((c.tc : Thread nD τ).loc main_arg7))
    (m ((c.tc : Thread nD τ).loc main_arg8)) (m ((c.tc : Thread nD τ).loc main_arg9))

/-- Gk at row r, lane q: row r of the staged arrays through the encoder. -/
theorem Gk_apply (c : Dev nD) (r : Fin 524288) (q : Fin 64) :
    Gk m c (ix2 r q)
      = rowOut (fun k => V m c main_v0 (ix2 r k)) (fun k => m ((c.tc : Thread nD τ).loc main_arg2) (ix2 r k))
          (fun k => m ((c.tc : Thread nD τ).loc main_arg3) (ix2 r k))
          (fun k => m ((c.tc : Thread nD τ).loc main_arg4) (ix2 (0 : Fin 1) (lo k)))
          (fun k => m ((c.tc : Thread nD τ).loc main_arg4) (ix2 (0 : Fin 1) (hi k)))
          (fun k => m ((c.tc : Thread nD τ).loc main_arg6) (ix2 (0 : Fin 1) (lo k)))
          (fun k => m ((c.tc : Thread nD τ).loc main_arg6) (ix2 (0 : Fin 1) (hi k)))
          (m ((c.tc : Thread nD τ).loc main_arg5) (ix1 (0 : Fin 1))) (m ((c.tc : Thread nD τ).loc main_arg7) (ix1 (0 : Fin 1)))
          (fun q k => m ((c.tc : Thread nD τ).loc main_arg8) (ix2 q k))
          (fun q => m ((c.tc : Thread nD τ).loc main_arg9) (ix1 q)) q := rfl

/-- A block that agrees, entry by entry, with rows 4096·t … of a whole array is point t's block of that array. -/
theorem cut_read (t : Fin cfg0.N) (P : Vec Ideal S4096x64 .f32) (Gf : FVec Ideal S524288x64 .f32)
    (h : ∀ (p : Fin 4096) (q : Fin 64), P (ix2 p q) = Gf (ix2 (row t p) q)) :
    (cfg0.win 11).cut (grid0.coords t) P = ((cfg0.win 11).blk t).view.read (Elt Ideal) Gf := by
  funext y
  obtain ⟨p, q, rfl⟩ : ∃ (p : Fin 4096) (q : Fin 64), y = ix2 p q := ⟨y 0, y 1, eq_ix2 y⟩
  obtain ⟨e0, e1, -⟩ := idx_facts t
  have hemb : ((cfg0.win 11).blk t).view.emb (ix2 p q) = ix2 (row t p) q := funext fun a => Fin.ext (by
    match a with
    | ⟨0, _⟩ => show win0_11.index t (0 : Fin 2) * 4096 + 1 * p.val = t.val * 4096 + p.val; omega
    | ⟨1, _⟩ => show win0_11.index t (1 : Fin 2) * 64 + 1 * q.val = q.val; omega)
  show P (ix2 p q) = Gf (((cfg0.win 11).blk t).view.emb (ix2 p q))
  rw [hemb]
  exact h p q

/-- WHAT POINT t WRITES BACK is block t of Gk. -/
theorem flushed_eq (c : Dev nD) (t : Fin cfg0.N) :
    (dats m 0 c).flushed 11 t = ((cfg0.win 11).blk t).view.read (Elt Ideal) (Gk m c) := by
  rw [Cert.KernelIdeal.Value.flushed11]
  unfold out0_11
  rw [View.canon_unit_zero hz]
  simp only [View.ld_unit_zero (S := S4096x64) hz, View.ld_unit_zero (S := S1x64) hz, View.ld_unit_zero (S := S1x1) hz,
    View.ld_unit_zero (S := S64x64) hz]
  refine cut_read t _ (Gk m c) (fun p q => ?_)
  refine (pay1_apply (iblk m c 0 t) (iblk m c 1 t) (iblk m c 2 t) (iblk m c 3 t) (iblk m c 4 t) (iblk m c 5 t)
    (iblk m c 6 t) (iblk m c 7 t) (iblk m c 8 t) (iblk m c 9 t) (iblk m c 10 t) p q).trans ?_
  rw [Gk_apply]
  exact rowOut_congr q (fun k => blk_self m c t p k) (fun k => f_l1 m c t p k) (fun k => f_l2 m c t p k)
    (fun k => w_aw1 m c t k) (fun k => w_aw2 m c t k) (fun k => w_bw1 m c t k) (fun k => w_bw2 m c t k)
    (w_ab m c t) (w_bb m c t) (fun q k => w_gw m c t q k) (fun q => w_gb m c t q)

/-- An index of the array is in point t's block iff each coordinate is in the block's range on its axis. -/
theorem mem_blk (t : Fin cfg0.N) (i : S524288x64.Idx) :
    i ∈ ((cfg0.win 11).blk t).view.set ↔ ∀ a : Fin 2, win0_11.index t a * S4096x64.size a ≤ (i a).val
      ∧ (i a).val < win0_11.index t a * S4096x64.size a + S4096x64.size a := by
  show i ∈ ((View.whole main_v8).slice (win0_11.rect t)).set ↔ _
  rw [View.set_slice_whole, Rect.mem_set_unit]
  exact Iff.rfl

/-- Every row is in the block of the point row / 4096. -/
theorem cover (i : S524288x64.Idx) :
    ∃ t : Fin cfg0.N, (cfg0.win 11).flush t = true ∧ i ∈ ((cfg0.win 11).blk t).view.set := by
  have hi0 : (i 0).val < 524288 := (i 0).isLt
  have hi1 : (i 1).val < 64 := (i 1).isLt
  have hlt : (i 0).val / 4096 < cfg0.N := by rw [show cfg0.N = 128 from N_0]; omega
  obtain ⟨e0, e1, -⟩ := idx_facts ⟨(i 0).val / 4096, hlt⟩
  refine ⟨⟨(i 0).val / 4096, hlt⟩, flush0_11 _, ?_⟩
  rw [mem_blk]
  intro a
  match a with
  | ⟨0, _⟩ =>
    show win0_11.index ⟨(i 0).val / 4096, hlt⟩ (0 : Fin 2) * 4096 ≤ (i 0).val
      ∧ (i 0).val < win0_11.index ⟨(i 0).val / 4096, hlt⟩ (0 : Fin 2) * 4096 + 4096
    rw [e0]
    show (i 0).val / 4096 * 4096 ≤ (i 0).val ∧ (i 0).val < (i 0).val / 4096 * 4096 + 4096
    omega
  | ⟨1, _⟩ =>
    show win0_11.index ⟨(i 0).val / 4096, hlt⟩ (1 : Fin 2) * 64 ≤ (i 1).val
      ∧ (i 1).val < win0_11.index ⟨(i 0).val / 4096, hlt⟩ (1 : Fin 2) * 64 + 64
    omega

/-- THE ARRAY after the run is Gk. -/
theorem final (c : Dev nD) : (dats m 0 c).arrAt 11 cfg0.N = Gk m c :=
  (dats m 0 c).arrAt_eq_of_cover 11 (Gk m c) (fun t _ => flushed_eq m c t) cover

/-- The kernel's run with its result array named: the encoder function of the looked-up rows and the arguments,
    the arguments unchanged. -/
theorem run : θ_run defs (onTc (τ := τ) (main (F := Ideal))) ⟨m, fun _ => 0, ρ⟩ fun r => ∀ c : Dev nD,
      r.2.mem ((c.tc : Thread nD τ).loc main_v8) = Gk m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun r h c => ⟨(h c).1.trans (final m c), (h c).2⟩)
    (Cert.KernelIdeal.Value.run_blocks m ρ)

end Cert.Encoder.Ker

end
-- ==== Proof.lean ====
/-
  A graph-encoder layer: the kernel against its jnp reference, over the extended reals.

  Both programs look up one embedding row per node index, form two scalar gates per row from the concatenation
  [embedding | neighbour features] — a 128-lane linear form, a bias, the slope-one rectifier —, combine
  embedding + α·l1 + β·l2, and apply a 64 × 64 linear layer with bias and the rectifier once more.

  They differ in three places, none of which changes the value on the stated domain:
  * the lookup. Both wrap a negative index by the table's height; the kernel's lookup then replaces rows whose wrapped
    index is out of [0, 999999] by a fill word, the reference's clamps such an index. The precondition confines the
    indices to [-1000000, 1000000), where the wrapped index is in range, no row is filled and nothing is clamped: the
    two lookups are one gather.
  * the gates. The kernel sums the embedding half and the neighbour half of the linear form separately (two lane
    sums per gate, over weight rows the host slices in two); the reference sums the 128 lanes of the concatenation at
    once. A sum over 128 lanes is the sum of its two halves.
  * the last layer. The kernel narrows both operands to bfloat16 in front of the matrix unit and transposes the
    weight in the body; on the extended reals a change of format is the identity, and both products are the sum over
    the lane k of combined (r, k) · weight (q, k).
  The kernel computes the result block by block over a grid of 128 points of 4096 rows; the blocks tile the rows.

  No law used needs finiteness: only commutativity and associativity of the extended reals' addition. Of the
  precondition the proof uses the indices' range alone.
-/
import proofs.«429671_j20375324852398_3_alg».proof.Defs
import proofs.«429671_j20375324852398_3_alg».proof.Proof.Gen.Kernel
import proofs.«429671_j20375324852398_3_alg».proof.Proof.Gen.Kernel.Skeleton
import proofs.«429671_j20375324852398_3_alg».proof.Proof.Gen.Kernel.Launch
import proofs.«429671_j20375324852398_3_alg».proof.Proof.Gen.Kernel.Points
import proofs.«429671_j20375324852398_3_alg».proof.Proof.Gen.Kernel.Frame
import proofs.«429671_j20375324852398_3_alg».proof.Proof.Gen.KernelIdeal
import proofs.«429671_j20375324852398_3_alg».proof.Proof.Gen.KernelIdeal.Skeleton
import proofs.«429671_j20375324852398_3_alg».proof.Proof.Gen.KernelIdeal.Launch
import proofs.«429671_j20375324852398_3_alg».proof.Proof.Gen.KernelIdeal.Points
import proofs.«429671_j20375324852398_3_alg».proof.Proof.Gen.KernelIdeal.Frame
import proofs.«429671_j20375324852398_3_alg».proof.Proof.Gen.ReferenceIdeal
import proofs.«429671_j20375324852398_3_alg».proof.Proof.Gen.Pre_finite_inputs
import proofs.«429671_j20375324852398_3_alg».proof.Proof.Gen.KernelIdeal.Value
import proofs.«429671_j20375324852398_3_alg».proof.Proof.Gen.ReferenceIdeal.Run
import proofs.«429671_j20375324852398_3_alg».proof.Proof.Gen.ReferenceIdeal.Read
import proofs.«429671_j20375324852398_3_alg».proof.Proof.Range
import proofs.«429671_j20375324852398_3_alg».proof.Proof.RefValue
import proofs.«429671_j20375324852398_3_alg».proof.Proof.KernelHost
import proofs.«429671_j20375324852398_3_alg».proof.Proof.KernelValue
import Idealize.ShloMosaic.Adequacy
import Idealize.ShloMosaic.Init

noncomputable section

namespace Cert.Proof

open Idealize.ShloMosaic Idealize.ShloMosaic.TcCoe Idealize.SL.Sem

/-- The kernel's gather of the wrapped indices is the reference's: the same operation on the same operands (the two
    programs' shape records are equal field by field). -/
theorem gather_eq (n : IVec Cert.KernelIdeal.S524288 32) (tbl : FVec Ideal Cert.KernelIdeal.S1000000x64 .f32) :
    Cert.Encoder.Ker.gathered n tbl = Cert.ReferenceIdeal.Read.val_main_v6 (F := Ideal) n tbl := rfl

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs end with the encoder function of the gathered rows and the arguments. -/
theorem algebraic : Cert.algebraic_KernelIdeal_ReferenceIdeal := by
  intro m ρ m' ρ' hpre hagree
  refine ⟨fun c => Cert.Encoder.Ker.Gk m c, Cert.Encoder.Ker.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9⟩ := hagree c
  rw [Cert.ReferenceIdeal.Read.val_main_v44_eq, Cert.Encoder.Ref.result_eq, h0, h1, h2, h3, h4, h5, h6, h7, h8, h9]
  unfold Cert.Encoder.Ker.Gk
  dsimp only
  rw [Cert.Encoder.Ker.V_self,
    Cert.Encoder.Ker.taken_eq_gathered _ _ (fun i => Cert.Encoder.nodes_bounds _ _ _ _ _ _ _ _ _ _ (hpre c) i), gather_eq]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
